-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S44x16 : S_.BroadcastsInDim S44x16 (![] : Fin 0 → Fin S44x16.rank)
  reducesTo_S44x16_S_d0_1 : S44x16.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S16x44 : S_.BroadcastsInDim S16x44 (![] : Fin 0 → Fin S16x44.rank)
  reducesTo_S16x44_S_d0_1 : S16x44.ReducesTo [0, 1] S_

variable [Facts]

def fn_part1 {F : FTy → Type} [FloatOps F] (main_arg4 : FVec F S44x16 .f32) (main_arg5 : FVec F S2048x5632 .f32) (main_arg6 : FVec F S16x44 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S44x16 .f32 := Host.absf main_arg4
  let main_cst_6 : FVec F S_ .f32 := constant S_ .f32 0x7F800000#32
  let main_v20 : FVec F S44x16 .f32 := broadcastInDim S44x16 ![] bcast_S_S44x16 main_cst_6
  let main_v21 : IVec S44x16 1 := cmpf .olt main_v19 main_v20
  let main_c_7 : IVec S_ 1 := constantI S_ 1 1#1
  let main_v22 : IVec S_ 1 := (fun x v => Host.reduce IntOp.andi x v reducesTo_S44x16_S_d0_1 h_S_) main_v21 main_c_7
  let main_v23 : IVec S_ 1 := andi main_v18 main_v22
  let main_v24 : FVec F S2048x5632 .f32 := Host.absf main_arg5
  let main_cst_8 : FVec F S_ .f32 := constant S_ .f32 0x7F800000#32
  let main_v25 : FVec F S2048x5632 .f32 := broadcastInDim S2048x5632 ![] bcast_S_S2048x5632 main_cst_8
  let main_v26 : IVec S2048x5632 1 := cmpf .olt main_v24 main_v25
  let main_c_9 : IVec S_ 1 := constantI S_ 1 1#1
  let main_v27 : IVec S_ 1 := (fun x v => Host.reduce IntOp.andi x v reducesTo_S2048x5632_S_d0_1 h_S_) main_v26 main_c_9
  let main_v28 : IVec S_ 1 := andi main_v23 main_v27
  let main_v29 : FVec F S16x44 .f32 := Host.absf main_arg6
  let main_cst_10 : FVec F S_ .f32 := constant S_ .f32 0x7F800000#32
  let main_v30 : FVec F S16x44 .f32 := broadcastInDim S16x44 ![] bcast_S_S16x44 main_cst_10
  let main_v31 : IVec S16x44 1 := cmpf .olt main_v29 main_v30
  let main_c_11 : IVec S_ 1 := constantI S_ 1 1#1
  let main_v32 : IVec S_ 1 := (fun x v => Host.reduce IntOp.andi x v reducesTo_S16x44_S_d0_1 h_S_) main_v31 main_c_11
  let main_v33 : IVec S_ 1 := andi main_v28 main_v32
  main_v33

def fn {F : FTy → Type} [FloatOps F] (main_arg0 : FVec F S8192x2048 .f32) (main_arg1 : FVec F S5632x2048 .f32) (main_arg2 : FVec F S44x16 .f32) (main_arg3 : FVec F S5632x2048 .f32) (main_arg4 : FVec F S44x16 .f32) (main_arg5 : FVec F S2048x5632 .f32) (main_arg6 : FVec F S16x44 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S44x16 .f32 := Host.absf main_arg2
  let main_cst_2 : FVec F S_ .f32 := constant S_ .f32 0x7F800000#32
  let main_v10 : FVec F S44x16 .f32 := broadcastInDim S44x16 ![] bcast_S_S44x16 main_cst_2
  let main_v11 : IVec S44x16 1 := cmpf .olt main_v9 main_v10
  let main_c_3 : IVec S_ 1 := constantI S_ 1 1#1
  let main_v12 : IVec S_ 1 := (fun x v => Host.reduce IntOp.andi x v reducesTo_S44x16_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_arg5 main_arg6 main_v13 main_v16
-- ==== Kernel.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S44x128x16x128 : Shape := ⟨4, ![44, 128, 16, 128]⟩
abbrev S44x1x16x1 : Shape := ⟨4, ![44, 1, 16, 1]⟩
abbrev S16x128x44x128 : Shape := ⟨4, ![16, 128, 44, 128]⟩
abbrev S16x1x44x1 : Shape := ⟨4, ![16, 1, 44, 1]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S1024x1024 : Shape := ⟨2, ![1024, 1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S44x16, .f32⟩
  | .hbm, ⟨3, _⟩ => ⟨S5632x2048, .f32⟩
  | .hbm, ⟨4, _⟩ => ⟨S44x16, .f32⟩
  | .hbm, ⟨5, _⟩ => ⟨S2048x5632, .f32⟩
  | .hbm, ⟨6, _⟩ => ⟨S16x44, .f32⟩
  | .hbm, ⟨7, _⟩ => ⟨S44x128x16x128, .f32⟩
  | .hbm, ⟨8, _⟩ => ⟨S44x1x16x1, .f32⟩
  | .hbm, ⟨9, _⟩ => ⟨S44x128x16x128, .f32⟩
  | .hbm, ⟨10, _⟩ => ⟨S44x128x16x128, .f32⟩
  | .hbm, ⟨11, _⟩ => ⟨S5632x2048, .f32⟩
  | .hbm, ⟨12, _⟩ => ⟨S5632x2048, .bf16⟩
  | .hbm, ⟨13, _⟩ => ⟨S44x128x16x128, .f32⟩
  | .hbm, ⟨14, _⟩ => ⟨S44x1x16x1, .f32⟩
  | .hbm, ⟨15, _⟩ => ⟨S44x128x16x128, .f32⟩
  | .hbm, ⟨16, _⟩ => ⟨S44x128x16x128, .f32⟩
  | .hbm, ⟨17, _⟩ => ⟨S5632x2048, .f32⟩
  | .hbm, ⟨18, _⟩ => ⟨S5632x2048, .bf16⟩
  | .hbm, ⟨19, _⟩ => ⟨S16x128x44x128, .f32⟩
  | .hbm, ⟨20, _⟩ => ⟨S16x1x44x1, .f32⟩
  | .hbm, ⟨21, _⟩ => ⟨S16x128x44x128, .f32⟩
  | .hbm, ⟨22, _⟩ => ⟨S16x128x44x128, .f32⟩
  | .hbm, ⟨23, _⟩ => ⟨S2048x5632, .f32⟩
  | .hbm, ⟨24, _⟩ => ⟨S2048x5632, .bf16⟩
  | .hbm, ⟨25, _⟩ => ⟨S8192x2048, .bf16⟩
  | .hbm, ⟨26, _⟩ => ⟨S8192x5632, .bf16⟩
  | .hbm, ⟨27, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 11], ![false, false, false]⟩

def k1_cond2 (i : grid1.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S5632x2048_S44x128x16x128 : S5632x2048.ShapeCasts S44x128x16x128
  bcast_S44x16_S44x1x16x1_0_2 : S44x16.BroadcastsInDim S44x1x16x1 (![0, 2] : Fin 2 → Fin S44x1x16x1.rank)
  bcast_S44x1x16x1_S44x128x16x128_0_1_2_3 : S44x1x16x1.BroadcastsInDim S44x128x16x128 (![0, 1, 2, 3] : Fin 4 → Fin S44x128x16x128.rank)
  shapeCasts_S44x128x16x128_S5632x2048 : S44x128x16x128.ShapeCasts S5632x2048
  bitsLt_bf16_f32 : FTy.bits .bf16 < FTy.bits .f32
  shapeCasts_S2048x5632_S16x128x44x128 : S2048x5632.ShapeCasts S16x128x44x128
  bcast_S16x44_S16x1x44x1_0_2 : S16x44.BroadcastsInDim S16x1x44x1 (![0, 2] : Fin 2 → Fin S16x1x44x1.rank)
  bcast_S16x1x44x1_S16x128x44x128_0_1_2_3 : S16x1x44x1.BroadcastsInDim S16x128x44x128 (![0, 1, 2, 3] : Fin 4 → Fin S16x128x44x128.rank)
  shapeCasts_S16x128x44x128_S2048x5632 : S16x128x44x128.ShapeCasts S2048x5632
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  dot_S1024x2048_S512x2048_S1024x512_1_1_0_0_n_n_wf : DotDims.WF S1024x2048 S512x2048 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x5632.size a
  hwx0_3 : ∀ i : grid0.Coords, EltTy.bits .bf16 = 32 ∨ (Rect.block (s := S8192x5632) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x5632.size a
  hwx1_0 : ∀ i : grid1.Coords, EltTy.bits .bf16 = 32 ∨ (Rect.block (s := S8192x5632) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x5632.size a
  hwx1_1 : ∀ i : grid1.Coords, EltTy.bits .bf16 = 32 ∨ (Rect.block (s := S2048x5632) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x2048.size a
  hwx1_2 : ∀ i : grid1.Coords, EltTy.bits .f32 = 32 ∨ (Rect.block (s := S8192x2048) S1024x1024.size (cc1_transform_2 i) (hinb1_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v18) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S44x128x16x128 : Shape := ⟨4, ![44, 128, 16, 128]⟩
abbrev S44x1x16x1 : Shape := ⟨4, ![44, 1, 16, 1]⟩
abbrev S8192x5632 : Shape := ⟨2, ![8192, 5632]⟩
abbrev S_ : Shape := ⟨0, ![]⟩
abbrev S16x128x44x128 : Shape := ⟨4, ![16, 128, 44, 128]⟩
abbrev S16x1x44x1 : Shape := ⟨4, ![16, 1, 44, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S44x16, .f32⟩
  | .hbm, ⟨3, _⟩ => ⟨S5632x2048, .f32⟩
  | .hbm, ⟨4, _⟩ => ⟨S44x16, .f32⟩
  | .hbm, ⟨5, _⟩ => ⟨S2048x5632, .f32⟩
  | .hbm, ⟨6, _⟩ => ⟨S16x44, .f32⟩
  | .hbm, ⟨7, _⟩ => ⟨S44x128x16x128, .f32⟩
  | .hbm, ⟨8, _⟩ => ⟨S44x1x16x1, .f32⟩
  | .hbm, ⟨9, _⟩ => ⟨S44x128x16x128, .f32⟩
  | .hbm, ⟨10, _⟩ => ⟨S44x128x16x128, .f32⟩
  | .hbm, ⟨11, _⟩ => ⟨S5632x2048, .f32⟩
  | .hbm, ⟨12, _⟩ => ⟨S2048x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S44x128x16x128, .f32⟩
  | .hbm, ⟨24, _⟩ => ⟨S44x1x16x1, .f32⟩
  | .hbm, ⟨25, _⟩ => ⟨S44x128x16x128, .f32⟩
  | .hbm, ⟨26, _⟩ => ⟨S44x128x16x128, .f32⟩
  | .hbm, ⟨27, _⟩ => ⟨S5632x2048, .f32⟩
  | .hbm, ⟨28, _⟩ => ⟨S2048x5632, .f32⟩
  | .hbm, ⟨29, _⟩ => ⟨S8192x5632, .f32⟩
  | .hbm, ⟨30, _⟩ => ⟨S16x128x44x128, .f32⟩
  | .hbm, ⟨31, _⟩ => ⟨S16x1x44x1, .f32⟩
  | .hbm, ⟨32, _⟩ => ⟨S16x128x44x128, .f32⟩
  | .hbm, ⟨33, _⟩ => ⟨S16x128x44x128, .f32⟩
  | .hbm, ⟨34, _⟩ => ⟨S2048x5632, .f32⟩
  | .hbm, ⟨35, _⟩ => ⟨S8192x5632, .f32⟩
  | .hbm, ⟨36, _⟩ => ⟨S5632x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S5632x2048_S44x128x16x128 : S5632x2048.ShapeCasts S44x128x16x128
  bcast_S44x16_S44x1x16x1_0_2 : S44x16.BroadcastsInDim S44x1x16x1 (![0, 2] : Fin 2 → Fin S44x1x16x1.rank)
  bcast_S44x1x16x1_S44x128x16x128_0_1_2_3 : S44x1x16x1.BroadcastsInDim S44x128x16x128 (![0, 1, 2, 3] : Fin 4 → Fin S44x128x16x128.rank)
  shapeCasts_S44x128x16x128_S5632x2048 : S44x128x16x128.ShapeCasts S5632x2048
  transposes_S5632x2048_S2048x5632_1_0 : S5632x2048.Transposes [1, 0] S2048x5632
  bcast_S_S8192x5632 : S_.BroadcastsInDim S8192x5632 (![] : Fin 0 → Fin S8192x5632.rank)
  shapeCasts_S2048x5632_S16x128x44x128 : S2048x5632.ShapeCasts S16x128x44x128
  bcast_S16x44_S16x1x44x1_0_2 : S16x44.BroadcastsInDim S16x1x44x1 (![0, 2] : Fin 2 → Fin S16x1x44x1.rank)
  bcast_S16x1x44x1_S16x128x44x128_0_1_2_3 : S16x1x44x1.BroadcastsInDim S16x128x44x128 (![0, 1, 2, 3] : Fin 4 → Fin S16x128x44x128.rank)
  shapeCasts_S16x128x44x128_S2048x5632 : S16x128x44x128.ShapeCasts S2048x5632
  transposes_S2048x5632_S5632x2048_1_0 : S2048x5632.Transposes [1, 0] S5632x2048
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.KGateUp.lean ====
/-
  The first kernel region of the program: the fused gate / up projections. Its grid has 8 × 11 points;
  point (i, j) reads rows [1024·i, 1024·(i+1)) of the token matrix and rows [512·j, 512·(j+1)) of the two
  rescaled weight matrices, and writes the [1024, 512] tile (i, j) of the hidden activation — one store of
  one payload, a pure function of the three blocks read. Stated at a PARAMETER `V`, the buffer contents
  the region is entered with, for any float instance: what each window's staging buffer holds before the
  body (its block of the array, fetched at this point or kept from the point before), what the body leaves
  (the inputs untouched, the output tile the payload of the three blocks), and that the body run on these
  is the pipeline's obligation at every point. Nothing is carried from point to point.
-/
import proofs.«110734_j13889924235944_1_alg».proof.Proof.Gen.Kernel.Launch
import proofs.«110734_j13889924235944_1_alg».proof.Proof.Gen.Kernel.Skeleton
import proofs.«110734_j13889924235944_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def gblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body -/

/-- The one rectangle the body stores through: the whole output tile. -/
abbrev gr : Rect S1024x512 := Rect.unit (s := S1024x512) ![0, 0] S1024x512.size inb_S1024x512_S1024x512_0_0
abbrev grx : Rect S1024x2048 := Rect.unit (s := S1024x2048) ![0, 0] S1024x2048.size inb_S1024x2048_S1024x2048_0_0
abbrev grw : Rect S512x2048 := Rect.unit (s := S512x2048) ![0, 0] S512x2048.size inb_S512x2048_S512x2048_0_0

/-- What the body leaves in the output tile's staging buffer, from the three blocks read. -/
def gout (x0 : Vec F S1024x2048 .bf16) (x1 x2 : Vec F S512x2048 .bf16) : Vec F S1024x512 .bf16 :=
  View.canon [⟨gr, k0_pay1 (View.ld x0 grx) (View.ld x1 grw) (View.ld x2 grw)⟩]

/-- The store covers the tile. -/
theorem gcover (p0 : Vec F S1024x512 .bf16) (y : S1024x512.Idx) :
    ∃ pc ∈ ([⟨gr, p0⟩] : List (View.Piece (Elt F) S1024x512 .bf16)), y ∈ pc.1.set :=
  View.cover_of_tiled [⟨gr, p0⟩] S1024x512.size (by rfl) y

set_option maxHeartbeats 1000000 in
/-- The body on whole staging buffers — the inputs' at contents `x0 x1 x2`, the output's at anything —
    runs to the end with the inputs' as they were and the output's at `gout x0 x1 x2`. -/
theorem gate_kernel (c : Dev nD) (E : Set ℕ) (i : grid0.Coords)
    (arg2 : Memref sig .tc .vmem S1024x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (x0 : Vec F S1024x2048 .bf16) (x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (gout x0 x1 x2)) -∗ K ⟨⟩))
      ⊢ wp frame (wpE (defs₀ (F := F)) Variants.none c none) E (cc0_gate_up_kernel i arg2 harg2 arg3 harg3 arg4 harg4 arg5 harg5) K := by
  simp only [cc0_gate_up_kernel_eq_skeleton]; unfold cc0_gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gcover _)

/-! ## The proof data -/

/-- The region's proof data on core `c`: the arrays as entered; after the body each input's buffer at its
    block and the output's at `gout` of the three blocks; the invariant the scoped buffers no window of this
    region stages and the generator register, untouched; nothing owed. -/
def gdat (c : Dev nD) : Dat τ (Elt F) Unit ℕ (UR sig nD τ) ℕ cfg0 c where
  A w := V c (Pipeline.arrRef spec0 w)
  after w t := match w with
    | ⟨0, _⟩ => gblk V c 0 t
    | ⟨1, _⟩ => gblk V c 1 t
    | ⟨2, _⟩ => gblk V c 2 t
    | ⟨3, _⟩ => gout (gblk V c 0 t) (gblk V c 1 t) (gblk V c 2 t)
  Φ _ := Pipeline.ΦA spec0 c
  q _ := fullShare
  owed _ := 0

theorem gA_eq (c : Dev nD) (w : Fin cfg0.W) : (gdat V c).A w = V c (Pipeline.arrRef spec0 w) := by
  dsimp only [gdat]

theorem gafter_0 (c : Dev nD) (t : Fin cfg0.N) : (gdat V c).after 0 t = gblk V c 0 t := by dsimp only [gdat]
theorem gafter_1 (c : Dev nD) (t : Fin cfg0.N) : (gdat V c).after 1 t = gblk V c 1 t := by dsimp only [gdat]
theorem gafter_2 (c : Dev nD) (t : Fin cfg0.N) : (gdat V c).after 2 t = gblk V c 2 t := by dsimp only [gdat]
theorem gafter_3 (c : Dev nD) (t : Fin cfg0.N) :
    (gdat V c).after 3 t = gout (gblk V c 0 t) (gblk V c 1 t) (gblk V c 2 t) := by dsimp only [gdat]

/-- Input window 0's staging buffer holds the window's block at every point, fetched there or kept from the
    point before (the block index has not moved), the window uncut and never idle. -/
theorem gbefore_0 (c : Dev nD) (t : Fin cfg0.N) (d) : (gdat V c).before 0 t d = gblk V c 0 t :=
  ((gdat V c).before_in_eq_fetched 0 rfl (fun _ => rfl) (fun _ _ _ => rfl)
    (fun t => by rw [gafter_0]; unfold Dat.blockOf gblk; rw [gA_eq]; try rfl) t d).trans
    (by unfold Dat.fetched Dat.blockOf gblk; rw [gA_eq]; try rfl)
/-- Input window 1's staging buffer holds the window's block at every point, fetched there or kept from the
    point before (the block index has not moved), the window uncut and never idle. -/
theorem gbefore_1 (c : Dev nD) (t : Fin cfg0.N) (d) : (gdat V c).before 1 t d = gblk V c 1 t :=
  ((gdat V c).before_in_eq_fetched 1 rfl (fun _ => rfl) (fun _ _ _ => rfl)
    (fun t => by rw [gafter_1]; unfold Dat.blockOf gblk; rw [gA_eq]; try rfl) t d).trans
    (by unfold Dat.fetched Dat.blockOf gblk; rw [gA_eq]; try rfl)
/-- Input window 2's staging buffer holds the window's block at every point, fetched there or kept from the
    point before (the block index has not moved), the window uncut and never idle. -/
theorem gbefore_2 (c : Dev nD) (t : Fin cfg0.N) (d) : (gdat V c).before 2 t d = gblk V c 2 t :=
  ((gdat V c).before_in_eq_fetched 2 rfl (fun _ => rfl) (fun _ _ _ => rfl)
    (fun t => by rw [gafter_2]; unfold Dat.blockOf gblk; rw [gA_eq]; try rfl) t d).trans
    (by unfold Dat.fetched Dat.blockOf gblk; rw [gA_eq]; try rfl)

/-! ## The body obligation -/

def gpre (c : Dev nD) (t : Fin cfg0.N) : sProp 𝕄 :=
  iprop((gdat V c).Φ t.castSucc ∗ (gdat V c).owesAt () t.castSucc
    ∗ (∃ d, owns (c : Thread nD τ) (st0_0 t) fullShare ((gdat V c).before 0 t d))
    ∗ (∃ d, owns (c : Thread nD τ) (st0_1 t) fullShare ((gdat V c).before 1 t d))
    ∗ (∃ d, owns (c : Thread nD τ) (st0_2 t) fullShare ((gdat V c).before 2 t d))
    ∗ (∃ d, owns (c : Thread nD τ) (st0_3 t) fullShare ((gdat V c).before 3 t d)))

def gpost (c : Dev nD) (t : Fin cfg0.N) : sProp 𝕄 :=
  iprop((gdat V c).Φ t.succ ∗ (gdat V c).owesAt () t.succ
    ∗ owns (c : Thread nD τ) (st0_0 t) fullShare ((gdat V c).after 0 t)
    ∗ owns (c : Thread nD τ) (st0_1 t) fullShare ((gdat V c).after 1 t)
    ∗ owns (c : Thread nD τ) (st0_2 t) fullShare ((gdat V c).after 2 t)
    ∗ owns (c : Thread nD τ) (st0_3 t) fullShare ((gdat V c).after 3 t))

/-- The body at any point: the inputs' buffers hold their blocks, so `gate_kernel` applies; the invariant and
    the core's dues pass through unread. -/
theorem gate_body (c : Dev nD) (t : Fin cfg0.N) :
    gpre V c t ⊢ wp frame (wpE (defs₀ (F := F)) Variants.none c none) Set.univ (bodyAt0 t) (fun _ => gpost V c t) := by
  unfold gpre gpost bodyAt0
  simp only [gbefore_0, gbefore_1, gbefore_2]
  rw [show (gdat V c).Φ t.succ = (gdat V c).Φ t.castSucc from rfl,
    show (gdat V c).owesAt () t.succ = (gdat V c).owesAt () t.castSucc from rfl,
    gafter_0, gafter_1, gafter_2, gafter_3]
  iintro ⟨HΦ, Ho, ⟨%d0, H0⟩, ⟨%d1, H1⟩, ⟨%d2, H2⟩, ⟨%d3, H3⟩⟩
  iapply (gate_kernel c Set.univ _ _ _ _ _ _ _ _ _ (gblk V c 0 t) (gblk V c 1 t) (gblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem gate_obligation (c : Dev nD) : BodyObligation (gdat (F := F) V c) (defs₀ (F := F)) Variants.none () Set.univ := fun t => by
  rw [bigSep_W0, bigSep_W0]
  exact gate_body V c t

end Cert.Kernel.Hand

end
-- ==== Proof.KDownRun.lean ====
/-
  The second kernel region: the down projection, accumulated over the hidden axis. Its grid has
  8 × 2 × 11 points (i, j, k), k innermost. Point (i, j, k) reads the [1024, 512] tile (i, k) of the
  hidden activation and the tile (j, k) of the rescaled down weights. A scratch buffer of the kernel's own
  carries the running [1024, 1024] sum from point to point: at k = 0 it is first cleared; at every point
  the product of the two tiles (contracted over their 512 columns) is added to it; at k = 10 it is copied
  into the output tile (i, j), which the pipeline writes back at those points only — elsewhere the
  output window is idle and its buffer goes back as it came.
  Three cases by the two conditions on k (first, last; 11 steps, so never both). Per case the body's run,
  with what it leaves in the scratch and in the output tile as the pieces its stores write; then the
  contents after each point by recursion on the point (`dacc`), the region's invariant — the scratch at
  what the point before left, the other scoped buffers and the generator register untouched —, the proof
  data and the pipeline's obligation. Stated at a PARAMETER `V` (the contents the region is entered
  with), for any float instance.
-/
import proofs.«110734_j13889924235944_1_alg».proof.Proof.Gen.Kernel.Launch
import proofs.«110734_j13889924235944_1_alg».proof.Proof.Gen.Kernel.Skeleton
import proofs.«110734_j13889924235944_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the innermost grid coordinate -/

/-- "k = 0", as the body computes it. -/
abbrev kFirst (i : grid1.Coords) : Prop :=
  (Scalar.cmpi .ne (Scalar.extui (Scalar.cmpi .eq (BitVec.ofNat 32 (i 2).val) 0#32)) 0#32) = 1#1
/-- It holds at the points ≡ 0 (mod 11). -/
theorem kFirst_iff : ∀ t : Fin cfg1.N, kFirst (grid1.coords t) ↔ t.val % 11 = 0 :=
  (by decide +kernel : ∀ t : Fin grid1.N, kFirst (grid1.coords t) ↔ t.val % 11 = 0)
/-- "k = 10", as the body computes it. -/
abbrev kLast (i : grid1.Coords) : Prop := k1_cond2 i = 1#1
/-- It holds at the points ≡ 10 (mod 11). -/
theorem kLast_iff : ∀ t : Fin cfg1.N, kLast (grid1.coords t) ↔ t.val % 11 = 10 :=
  (by decide +kernel : ∀ t : Fin grid1.N, kLast (grid1.coords t) ↔ t.val % 11 = 10)

/-- The input windows are never idle. -/
theorem dlive_0 : ∀ t : Fin cfg1.N, cfg1.idle 0 (grid1.coords t) = false := by decide +kernel
theorem dlive_1 : ∀ t : Fin cfg1.N, cfg1.idle 1 (grid1.coords t) = false := by decide +kernel
/-- Away from k = 10 the output window is idle and not written back; at k = 10 it is live. -/
theorem didle_2 : ∀ t : Fin cfg1.N, ¬kLast (grid1.coords t) → cfg1.idle 2 (grid1.coords t) = true := by decide +kernel
theorem dnoflush_2 : ∀ t : Fin cfg1.N, ¬kLast (grid1.coords t) → (cfg1.win 2).flush t = false := by decide +kernel
theorem dlive_2 : ∀ t : Fin cfg1.N, kLast (grid1.coords t) → cfg1.idle 2 (grid1.coords t) = false := by decide +kernel

/-! ## The memrefs the body is called with -/

abbrev dm0 (t : Fin cfg1.N) : Memref sig .tc .vmem S1024x512 .bf16 := win1_0.stage (cfg1.slots t 0)
abbrev dh0 (t : Fin cfg1.N) : (dm0 t).IsWhole := hstage1_0 ((cfg1.slots t 0).cast nbuf1_0)
abbrev dm1 (t : Fin cfg1.N) : Memref sig .tc .vmem S1024x512 .bf16 := win1_1.stage (cfg1.slots t 1)
abbrev dh1 (t : Fin cfg1.N) : (dm1 t).IsWhole := hstage1_1 ((cfg1.slots t 1).cast nbuf1_1)
abbrev dm2 (t : Fin cfg1.N) : Memref sig .tc .vmem S1024x1024 .f32 := win1_2.stage (cfg1.slots t 2)
abbrev dh2 (t : Fin cfg1.N) : (dm2 t).IsWhole := hstage1_2 ((cfg1.slots t 2).cast nbuf1_2)
/-- The scratch accumulator. -/
abbrev dsc : Memref sig .tc .vmem S1024x1024 .f32 := Memref.whole cc1_scratch0
/-- The views the contents of the output tile and of the scratch are stated through. -/
abbrev dVO : View sig .tc .vmem S1024x1024 .f32 := (Memref.whole cc1_stg2_0 : Memref sig .tc .vmem S1024x1024 .f32).view
abbrev dVS : View sig .tc .vmem S1024x1024 .f32 := dsc.view

/-! ## The body's run, case by case -/

set_option maxHeartbeats 4000000 in
/-- k = 0 (and not 10): the scratch, found at anything, is cleared and the tiles' product added; the output
    tile's buffer is not touched. The pieces the scratch ends with are the run's witness. -/
noncomputable def drunA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- 0 < k < 10: the tiles' product is added to the scratch, found at `xs`; the output tile's buffer is not
    touched. -/
noncomputable def drunB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xs
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- k = 10: the tiles' product is added to the scratch, found at `xs`, and the scratch is copied into the
    output tile's buffer, found at anything. -/
noncomputable def drunC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, ?_, fun E K => ?run⟩
  case run =>
    simp only [cc1_down_kernel_eq_skeleton]; unfold cc1_down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.KDownAcc.lean ====
/-
  The down-projection region, continued: from the three cases' runs to the pipeline's obligation. What the
  scratch accumulator and the output tile's buffer hold after each grid point is a recursion on the point
  (`dacc`): at a point with k = 0 the first case's contents of the two tiles read there, otherwise the
  later cases' contents over what the point before left in the scratch. The region's invariant before point
  `n` keeps the scratch at `dacc (n - 1)` (before the first point: at anything, as the region finds it)
  beside the other scoped buffers and the generator register, which the body never touches.
-/
import proofs.«110734_j13889924235944_1_alg».proof.Proof.KDownRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def dblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves -/

theorem dcoverA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) (y : S1024x1024.Idx) :
    ∃ pc ∈ (drunA c i arg3 harg3 arg4 harg4 arg5 harg5 arg6 harg6 hc0 hc1 x0 x1).1, y ∈ pc.1.set :=
  View.cover_of_tiledL (drunA c i arg3 harg3 arg4 harg4 arg5 harg5 arg6 harg6 hc0 hc1 x0 x1).1 S1024x1024.size (by sl_kernel_rfl) y

/-- The scratch after a point with k = 0. -/
def dsoutA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) : Vec F S1024x1024 .f32 :=
  dVS.read (Elt F) (dVS.writes (Elt F) dVS.junk (drunA c i arg3 harg3 arg4 harg4 arg5 harg5 arg6 harg6 hc0 hc1 x0 x1).1)

theorem dcoverB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) (y : S1024x1024.Idx) :
    ∃ pc ∈ (drunB c i arg3 harg3 arg4 harg4 arg5 harg5 arg6 harg6 hc0 hc1 x0 x1 xs).1, y ∈ pc.1.set :=
  View.cover_of_tiledL (drunB c i arg3 harg3 arg4 harg4 arg5 harg5 arg6 harg6 hc0 hc1 x0 x1 xs).1 S1024x1024.size (by sl_kernel_rfl) y

/-- The scratch after a point with 0 < k < 10. -/
def dsoutB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) : Vec F S1024x1024 .f32 :=
  dVS.read (Elt F) (dVS.writes (Elt F) dVS.junk (drunB c i arg3 harg3 arg4 harg4 arg5 harg5 arg6 harg6 hc0 hc1 x0 x1 xs).1)

theorem dcoverC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) (y : S1024x1024.Idx) :
    ∃ pc ∈ (drunC c i arg3 harg3 arg4 harg4 arg5 harg5 arg6 harg6 hc0 hc1 x0 x1 xs).2.1, y ∈ pc.1.set :=
  View.cover_of_tiledL (drunC c i arg3 harg3 arg4 harg4 arg5 harg5 arg6 harg6 hc0 hc1 x0 x1 xs).2.1 S1024x1024.size (by sl_kernel_rfl) y

/-- The scratch after a point with k = 10. -/
def dsoutC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) : Vec F S1024x1024 .f32 :=
  dVS.read (Elt F) (dVS.writes (Elt F) dVS.junk (drunC c i arg3 harg3 arg4 harg4 arg5 harg5 arg6 harg6 hc0 hc1 x0 x1 xs).2.1)

theorem dcoverO (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) (y : S1024x1024.Idx) :
    ∃ pc ∈ (drunC c i arg3 harg3 arg4 harg4 arg5 harg5 arg6 harg6 hc0 hc1 x0 x1 xs).1, y ∈ pc.1.set :=
  View.cover_of_tiledL (drunC c i arg3 harg3 arg4 harg4 arg5 harg5 arg6 harg6 hc0 hc1 x0 x1 xs).1 S1024x1024.size (by sl_kernel_rfl) y

/-- The output tile's buffer after a point with k = 10. -/
def doutC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) : Vec F S1024x1024 .f32 :=
  dVO.read (Elt F) (dVO.writes (Elt F) dVO.junk (drunC c i arg3 harg3 arg4 harg4 arg5 harg5 arg6 harg6 hc0 hc1 x0 x1 xs).1)

/-! ## The contents after each point -/

/-- What the output tile's buffer (first component; meaningful at the points with k = 10 only, elsewhere the
    window is idle and the component is never consulted) and the scratch (second component) hold after the
    body at position `n`. -/
def dacc (c : Dev nD) : (n : ℕ) → n < cfg1.N → Vec F S1024x1024 .f32 × Vec F S1024x1024 .f32
  | 0, hn =>
    (dsoutA c (grid1.coords ⟨0, hn⟩) (dm0 ⟨0, hn⟩) (dh0 ⟨0, hn⟩) (dm1 ⟨0, hn⟩) (dh1 ⟨0, hn⟩) (dm2 ⟨0, hn⟩) (dh2 ⟨0, hn⟩) dsc (Memref.isWhole_whole _)
      ((kFirst_iff ⟨0, hn⟩).mpr (Nat.zero_mod _)) (fun h => (fun h => by (try dsimp only at h); omega) ((kLast_iff ⟨0, hn⟩).mp h))
      (dblk V c 0 ⟨0, hn⟩) (dblk V c 1 ⟨0, hn⟩),
     dsoutA c (grid1.coords ⟨0, hn⟩) (dm0 ⟨0, hn⟩) (dh0 ⟨0, hn⟩) (dm1 ⟨0, hn⟩) (dh1 ⟨0, hn⟩) (dm2 ⟨0, hn⟩) (dh2 ⟨0, hn⟩) dsc (Memref.isWhole_whole _)
      ((kFirst_iff ⟨0, hn⟩).mpr (Nat.zero_mod _)) (fun h => (fun h => by (try dsimp only at h); omega) ((kLast_iff ⟨0, hn⟩).mp h))
      (dblk V c 0 ⟨0, hn⟩) (dblk V c 1 ⟨0, hn⟩))
  | n + 1, hn =>
    if h0 : (n + 1) % 11 = 0 then
      if h1 : (n + 1) % 11 = 10 then
        False.elim (by omega)
      else
        (dsoutA c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          ((kFirst_iff ⟨n + 1, hn⟩).mpr h0) (fun h => h1 ((kLast_iff ⟨n + 1, hn⟩).mp h))
          (dblk V c 0 ⟨n + 1, hn⟩) (dblk V c 1 ⟨n + 1, hn⟩),
         dsoutA c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          ((kFirst_iff ⟨n + 1, hn⟩).mpr h0) (fun h => h1 ((kLast_iff ⟨n + 1, hn⟩).mp h))
          (dblk V c 0 ⟨n + 1, hn⟩) (dblk V c 1 ⟨n + 1, hn⟩))
    else
      if h1 : (n + 1) % 11 = 10 then
        (doutC c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) ((kLast_iff ⟨n + 1, hn⟩).mpr h1)
          (dblk V c 0 ⟨n + 1, hn⟩) (dblk V c 1 ⟨n + 1, hn⟩) (dacc c n (Nat.lt_of_succ_lt hn)).2,
         dsoutC c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) ((kLast_iff ⟨n + 1, hn⟩).mpr h1)
          (dblk V c 0 ⟨n + 1, hn⟩) (dblk V c 1 ⟨n + 1, hn⟩) (dacc c n (Nat.lt_of_succ_lt hn)).2)
      else
        (dsoutB c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) (fun h => h1 ((kLast_iff ⟨n + 1, hn⟩).mp h))
          (dblk V c 0 ⟨n + 1, hn⟩) (dblk V c 1 ⟨n + 1, hn⟩) (dacc c n (Nat.lt_of_succ_lt hn)).2,
         dsoutB c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) (fun h => h1 ((kLast_iff ⟨n + 1, hn⟩).mp h))
          (dblk V c 0 ⟨n + 1, hn⟩) (dblk V c 1 ⟨n + 1, hn⟩) (dacc c n (Nat.lt_of_succ_lt hn)).2)

/-- `dacc` at a point with k = 0. -/
theorem dacc_A (c : Dev nD) (t : Fin cfg1.N) (h0 : t.val % 11 = 0) (h1 : ¬t.val % 11 = 10) :
    dacc V c t.val t.isLt = (dsoutA c (grid1.coords t) (dm0 t) (dh0 t) (dm1 t) (dh1 t) (dm2 t) (dh2 t) dsc (Memref.isWhole_whole _)
      ((kFirst_iff t).mpr h0) (fun h => h1 ((kLast_iff t).mp h)) (dblk V c 0 t) (dblk V c 1 t),
      dsoutA c (grid1.coords t) (dm0 t) (dh0 t) (dm1 t) (dh1 t) (dm2 t) (dh2 t) dsc (Memref.isWhole_whole _)
      ((kFirst_iff t).mpr h0) (fun h => h1 ((kLast_iff t).mp h)) (dblk V c 0 t) (dblk V c 1 t)) := by
  obtain ⟨n, hn⟩ := t
  cases n with
  | zero => exact rfl
  | succ n => exact (dif_pos h0).trans ((dif_neg h1).trans rfl)

/-- `dacc` at a point with 0 < k < 10: over what the point before left. -/
theorem dacc_B (c : Dev nD) (t : Fin cfg1.N) (h0 : ¬t.val % 11 = 0) (h1 : ¬t.val % 11 = 10) :
    dacc V c t.val t.isLt = (dsoutB c (grid1.coords t) (dm0 t) (dh0 t) (dm1 t) (dh1 t) (dm2 t) (dh2 t) dsc (Memref.isWhole_whole _)
      (fun h => h0 ((kFirst_iff t).mp h)) (fun h => h1 ((kLast_iff t).mp h)) (dblk V c 0 t) (dblk V c 1 t)
      (dacc V c (t.val - 1) (Nat.lt_of_le_of_lt (Nat.sub_le _ _) t.isLt)).2,
      dsoutB c (grid1.coords t) (dm0 t) (dh0 t) (dm1 t) (dh1 t) (dm2 t) (dh2 t) dsc (Memref.isWhole_whole _)
      (fun h => h0 ((kFirst_iff t).mp h)) (fun h => h1 ((kLast_iff t).mp h)) (dblk V c 0 t) (dblk V c 1 t)
      (dacc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `dacc` at a point with k = 10: over what the point before left. -/
theorem dacc_C (c : Dev nD) (t : Fin cfg1.N) (h0 : ¬t.val % 11 = 0) (h1 : t.val % 11 = 10) :
    dacc V c t.val t.isLt = (doutC c (grid1.coords t) (dm0 t) (dh0 t) (dm1 t) (dh1 t) (dm2 t) (dh2 t) dsc (Memref.isWhole_whole _)
      (fun h => h0 ((kFirst_iff t).mp h)) ((kLast_iff t).mpr h1) (dblk V c 0 t) (dblk V c 1 t)
      (dacc V c (t.val - 1) (Nat.lt_of_le_of_lt (Nat.sub_le _ _) t.isLt)).2,
      dsoutC c (grid1.coords t) (dm0 t) (dh0 t) (dm1 t) (dh1 t) (dm2 t) (dh2 t) dsc (Memref.isWhole_whole _)
      (fun h => h0 ((kFirst_iff t).mp h)) ((kLast_iff t).mpr h1) (dblk V c 0 t) (dblk V c 1 t)
      (dacc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

end Cert.Kernel.Hand

end
-- ==== Proof.KDownBody.lean ====
/-
  The down-projection region, concluded: the invariant, the proof data and the pipeline's obligation.
  Before the first point the invariant is what a region is handed — every scoped buffer no window of this
  region stages at some contents, the generator register at some state; before point `n + 1` it has the
  scratch accumulator at `dacc n`'s scratch component, the rest as before. The body at a point is the
  run of the case the point is in: the inputs' buffers hold their blocks, the scratch what the invariant
  says, the output tile's buffer goes back untouched (idle) or filled from the scratch (k = 10).
-/
import proofs.«110734_j13889924235944_1_alg».proof.Proof.KDownAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that this region neither stages nor uses (the first region's staging
    buffers), each at some contents, and the generator register at some state. -/
def dRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ r, prngReg c r))

/-- What the region is handed splits into the scratch at some contents and the rest. -/
theorem dPhiA_split (c : Dev nD) :
    (Pipeline.ΦA spec1 c : sProp 𝕄) ⊢ iprop((∃ d, owns (c : Thread nD τ) dsc fullShare d) ∗ dRest (F := F) c) := by
  unfold Pipeline.ΦA dRest; rw [scopedRest1_eq]; simp only [dsc, owns_whole]
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- And back. -/
theorem dPhiA_join (c : Dev nD) :
    iprop((∃ d, owns (c : Thread nD τ) dsc fullShare d) ∗ dRest (F := F) c) ⊢ (Pipeline.ΦA spec1 c : sProp 𝕄) := by
  unfold Pipeline.ΦA dRest; rw [scopedRest1_eq]; simp only [dsc, owns_whole]
  iintro ⟨HS, H0, H1, H2, H3, H4, H5, H6, H7, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The region's invariant before position `n`. -/
def dPhi (c : Dev nD) : (n : ℕ) → n ≤ cfg1.N → sProp 𝕄
  | 0, _ => Pipeline.ΦA spec1 c
  | n + 1, hn => iprop(owns (c : Thread nD τ) dsc fullShare ((dacc V c n hn).2) ∗ dRest (F := F) c)

theorem dPhi_zero (c : Dev nD) (n : ℕ) (h : n ≤ cfg1.N) (hz : n = 0) : dPhi V c n h = Pipeline.ΦA spec1 c := by
  subst hz; rfl

theorem dPhi_succ (c : Dev nD) (n : ℕ) (hn : n < cfg1.N) :
    dPhi V c (n + 1) hn = iprop(owns (c : Thread nD τ) dsc fullShare ((dacc V c n hn).2) ∗ dRest (F := F) c) := rfl

theorem dPhi_pos (c : Dev nD) (n : ℕ) (h : n ≤ cfg1.N) (hz : n ≠ 0) :
    dPhi V c n h = iprop(owns (c : Thread nD τ) dsc fullShare ((dacc V c (n - 1) (by omega)).2) ∗ dRest (F := F) c) := by
  cases n with
  | zero => exact absurd rfl hz
  | succ n => rfl

/-! ## The proof data -/

/-- The region's proof data on core `c`: the arrays as entered; after the body each input's buffer at its
    block, the output tile's at `dacc`'s first component; the invariant `dPhi`; nothing owed. -/
def ddat (c : Dev nD) : Dat τ (Elt F) Unit ℕ (UR sig nD τ) ℕ cfg1 c where
  A w := V c (Pipeline.arrRef spec1 w)
  after w t := match w with
    | ⟨0, _⟩ => dblk V c 0 t
    | ⟨1, _⟩ => dblk V c 1 t
    | ⟨2, _⟩ => (dacc V c t.val t.isLt).1
  Φ t := dPhi V c t.val (Nat.le_of_lt_succ t.isLt)
  q _ := fullShare
  owed _ := 0

theorem dA_eq (c : Dev nD) (w : Fin cfg1.W) : (ddat V c).A w = V c (Pipeline.arrRef spec1 w) := by
  dsimp only [ddat]

theorem dPhi_castSucc (c : Dev nD) (t : Fin cfg1.N) :
    (ddat V c).Φ t.castSucc = dPhi V c t.val (Nat.le_of_lt t.isLt) := by
  dsimp only [ddat]; simp only [Fin.coe_castSucc]

theorem dafter_0 (c : Dev nD) (t : Fin cfg1.N) : (ddat V c).after 0 t = dblk V c 0 t := by dsimp only [ddat]
theorem dafter_1 (c : Dev nD) (t : Fin cfg1.N) : (ddat V c).after 1 t = dblk V c 1 t := by dsimp only [ddat]
theorem dafter_2 (c : Dev nD) (t : Fin cfg1.N) : (ddat V c).after 2 t = (dacc V c t.val t.isLt).1 := by dsimp only [ddat]

/-- An input window's staging buffer holds the window's block at every point. -/
theorem dbefore_0 (c : Dev nD) (t : Fin cfg1.N) (d) : (ddat V c).before 0 t d = dblk V c 0 t :=
  ((ddat V c).before_in_eq_fetched 0 rfl (fun _ => rfl) (fun _ _ _ => rfl)
    (fun t => by rw [dafter_0]; unfold Dat.blockOf dblk; rw [dA_eq]; try rfl) t d).trans
    (by unfold Dat.fetched Dat.blockOf dblk; rw [dA_eq]; try rfl)
theorem dbefore_1 (c : Dev nD) (t : Fin cfg1.N) (d) : (ddat V c).before 1 t d = dblk V c 1 t :=
  ((ddat V c).before_in_eq_fetched 1 rfl (fun _ => rfl) (fun _ _ _ => rfl)
    (fun t => by rw [dafter_1]; unfold Dat.blockOf dblk; rw [dA_eq]; try rfl) t d).trans
    (by unfold Dat.fetched Dat.blockOf dblk; rw [dA_eq]; try rfl)

/-! ## The body obligation -/

def dpre (c : Dev nD) (t : Fin cfg1.N) : sProp 𝕄 :=
  iprop((ddat V c).Φ t.castSucc ∗ (ddat V c).owesAt () t.castSucc
    ∗ (∃ d, owns (c : Thread nD τ) (dm0 t) fullShare ((ddat V c).before 0 t d))
    ∗ (∃ d, owns (c : Thread nD τ) (dm1 t) fullShare ((ddat V c).before 1 t d))
    ∗ (∃ d, owns (c : Thread nD τ) (dm2 t) fullShare ((ddat V c).before 2 t d)))

def dpost (c : Dev nD) (t : Fin cfg1.N) : sProp 𝕄 :=
  iprop((ddat V c).Φ t.succ ∗ (ddat V c).owesAt () t.succ
    ∗ (ddat V c).leavesExact 0 t
    ∗ (ddat V c).leavesExact 1 t
    ∗ (ddat V c).leavesExact 2 t)

set_option maxHeartbeats 4800000 in
/-- The body at any point, by the case the point is in. -/
theorem down_body (c : Dev nD) (t : Fin cfg1.N) :
    dpre V c t ⊢ wp frame (wpE (defs₀ (F := F)) Variants.none c none) Set.univ (bodyAt1 t) (fun _ => dpost V c t) := by
  unfold dpre dpost bodyAt1
  simp only [dbefore_0, dbefore_1]
  rw [show (ddat V c).owesAt () t.succ = (ddat V c).owesAt () t.castSucc from rfl]
  rw [show (ddat V c).Φ t.succ = dPhi V c (t.val + 1) t.isLt from rfl, dPhi_succ]
  rw [show (ddat V c).leavesExact 0 t = owns (c : Thread nD τ) (dm0 t) fullShare ((ddat V c).after 0 t) from by
    unfold Dat.leavesExact; rw [dlive_0 t], dafter_0]
  rw [show (ddat V c).leavesExact 1 t = owns (c : Thread nD τ) (dm1 t) fullShare ((ddat V c).after 1 t) from by
    unfold Dat.leavesExact; rw [dlive_1 t], dafter_1]
  have hN : t.val < 176 := lt_of_lt_of_eq t.isLt (show cfg1.N = 176 from N_1)
  by_cases h0 : t.val % 11 = 0
  · have h1 : ¬t.val % 11 = 10 := by omega
    rw [Dat.leavesExact_idle (ddat V c) 2 t (didle_2 t (fun h => h1 ((kLast_iff t).mp h))) (dnoflush_2 t (fun h => h1 ((kLast_iff t).mp h)))]
    rw [dacc_A V c t h0 h1]
    unfold dsoutA; (try dsimp only)
    by_cases hz : t.val = 0
    · rw [dPhi_castSucc V c t, dPhi_zero V c _ _ hz]
      iintro ⟨HΦ, Ho, ⟨%d0, H0⟩, ⟨%d1, H1⟩, ⟨%d2, H2⟩⟩
      ihave HΦ' := (dPhiA_split (F := F) c) $$ HΦ
      icases HΦ' with ⟨HS, HR⟩
      iapply ((drunA c (grid1.coords t) _ _ _ _ _ _ _ _ ((kFirst_iff t).mpr h0) (fun h => h1 ((kLast_iff t).mp h)) (dblk V c 0 t) (dblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverA c _ _ _ _ _ _ _ _ _ _ _ _ _)
        iexact HR
      isplitl [Ho]; · iexact Ho
      isplitl [H0]; · iexact H0
      isplitl [H1]; · iexact H1
      iexists _; iexact H2
    · rw [dPhi_castSucc V c t, dPhi_pos V c _ _ hz]
      iintro ⟨⟨HS, HR⟩, Ho, ⟨%d0, H0⟩, ⟨%d1, H1⟩, ⟨%d2, H2⟩⟩
      iapply ((drunA c (grid1.coords t) _ _ _ _ _ _ _ _ ((kFirst_iff t).mpr h0) (fun h => h1 ((kLast_iff t).mp h)) (dblk V c 0 t) (dblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverA c _ _ _ _ _ _ _ _ _ _ _ _ _)
        iexact HR
      isplitl [Ho]; · iexact Ho
      isplitl [H0]; · iexact H0
      isplitl [H1]; · iexact H1
      iexists _; iexact H2
  · have hz : t.val ≠ 0 := fun e => h0 (by rw [e])
    by_cases h1 : t.val % 11 = 10
    · rw [show (ddat V c).leavesExact 2 t = owns (c : Thread nD τ) (dm2 t) fullShare ((ddat V c).after 2 t) from by
        unfold Dat.leavesExact; rw [dlive_2 t ((kLast_iff t).mpr h1)], dafter_2]
      rw [dacc_C V c t h0 h1]
      unfold doutC dsoutC; (try dsimp only)
      rw [dPhi_castSucc V c t, dPhi_pos V c _ _ hz]
      iintro ⟨⟨HS, HR⟩, Ho, ⟨%d0, H0⟩, ⟨%d1, H1⟩, ⟨%d2, H2⟩⟩
      iapply ((drunC c (grid1.coords t) _ _ _ _ _ _ _ _ (fun h => h0 ((kFirst_iff t).mp h)) ((kLast_iff t).mpr h1) (dblk V c 0 t) (dblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · isplitl [HS]
        · unfold owns; iexists _; isplitr
          swap; · iexact HS
          ipureintro; exact View.read_writes_of_cover _ _ _ _ _ (dcoverC c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (dcoverO c _ _ _ _ _ _ _ _ _ _ _ _ _ _)
    · rw [Dat.leavesExact_idle (ddat V c) 2 t (didle_2 t (fun h => h1 ((kLast_iff t).mp h))) (dnoflush_2 t (fun h => h1 ((kLast_iff t).mp h)))]
      rw [dacc_B V c t h0 h1]
      unfold dsoutB; (try dsimp only)
      rw [dPhi_castSucc V c t, dPhi_pos V c _ _ hz]
      iintro ⟨⟨HS, HR⟩, Ho, ⟨%d0, H0⟩, ⟨%d1, H1⟩, ⟨%d2, H2⟩⟩
      iapply ((drunB c (grid1.coords t) _ _ _ _ _ _ _ _ (fun h => h0 ((kFirst_iff t).mp h)) (fun h => h1 ((kLast_iff t).mp h)) (dblk V c 0 t) (dblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverB c _ _ _ _ _ _ _ _ _ _ _ _ _ _)
        iexact HR
      isplitl [Ho]; · iexact Ho
      isplitl [H0]; · iexact H0
      isplitl [H1]; · iexact H1
      iexists _; iexact H2

/-- The pipeline's body obligation, at every point. -/
theorem down_obligation (c : Dev nD) : BodyObligation (ddat (F := F) V c) (defs₀ (F := F)) Variants.none () Set.univ := fun t => by
  rw [bigSep_W1, bigSep_W1]
  exact down_body V c t

/-- What the region is handed is the invariant before the first point. -/
theorem down_in (c : Dev nD) : (Pipeline.ΦA spec1 c : sProp 𝕄) ⊢ (ddat V c).Φ 0 := by
  rw [show (ddat V c).Φ 0 = dPhi V c 0 (Nat.zero_le _) from rfl, dPhi_zero V c 0 _ rfl]
  try exact Idealize.SL.BI.Entails.refl _

/-- After the last point the invariant gives back what a region hands back: the scratch's contents forgotten. -/
theorem down_out (c : Dev nD) : (ddat V c).Φ (Fin.last cfg1.N) ⊢ (Pipeline.ΦA spec1 c : sProp 𝕄) := by
  have hN : cfg1.N = 176 := N_1
  rw [show (ddat V c).Φ (Fin.last cfg1.N) = dPhi V c (Fin.last cfg1.N).val (Nat.le_of_lt_succ (Fin.last cfg1.N).isLt) from rfl,
    dPhi_pos V c _ _ (by rw [Fin.val_last]; omega)]
  refine .trans ?_ (dPhiA_join (F := F) c)
  iintro ⟨HS, HR⟩
  isplitl [HS]; · iexists _; iexact HS
  iexact HR

end Cert.Kernel.Hand

end
-- ==== Proof.KRun.lean ====
/-
  The whole run of the program: @main is a stretch of host operations (the three weight matrices rescaled
  block by block and rounded, the tokens rounded), the gate / up region, the down-projection region. The
  buffer contents at each boundary are a fold from the launch memory: `W1` after the host stretch, `W2`
  with the first region's arrays at what its write-backs leave (the hidden activation filled tile by
  tile), `W3` likewise after the second (the result filled tile by tile at the points with k = 10).
  Each region is one segment of the several-regions launch: its arrays are split out of the unscoped
  buffers at entry and put back at exit, the generator register and the scoped buffers pass through its
  invariant, nothing is owed between cores. The run's conclusion: every weakly fair execution ends, and
  every unscoped buffer then holds `W3`. The argument arrays are written by no host operation and staged
  by no output window, so `W3` has them as launched.
-/
import proofs.«110734_j13889924235944_1_alg».proof.Proof.KGateUp
import proofs.«110734_j13889924235944_1_alg».proof.Proof.KDownBody
import proofs.«110734_j13889924235944_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
/-- After the host stretch: the first region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the gate / up region: its arrays at what the pipeline leaves, every other buffer as entered. -/
def W2 (c : Dev nD) : Valuation τ sig (Elt F) :=
  Pipeline.withArrays spec0 c (W1 m c) fun w => (gdat (U1 m) c).arrAt w cfg0.N
theorem W2_arr (c : Dev nD) (w : Fin cfg0.W) :
    W2 m c (Proc.devRef .tc (Pipeline.arrRef spec0 w)) = (gdat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (gdat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the down-projection region. -/
def W3 (c : Dev nD) : Valuation τ sig (Elt F) :=
  Pipeline.withArrays spec1 c (W2 m c) fun w => (ddat (U2 m) c).arrAt w cfg1.N
theorem W3_arr (c : Dev nD) (w : Fin cfg1.W) :
    W3 m c (Proc.devRef .tc (Pipeline.arrRef spec1 w)) = (ddat (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (ddat (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- A buffer that no host operation writes and that is no array of either region ends as launched. -/
theorem W3_kept (c : Dev nD) (b : Ref sig .tc) (h0 : b ∉ hostOps0_W) (h1 : ∀ w, Pipeline.arrRef spec0 w ≠ b)
    (h2 : ∀ w, Pipeline.arrRef spec1 w ≠ b) : W3 m c (Proc.devRef .tc b) = m ((c : Thread nD τ).loc b) :=
  (W3_of_ne m c b h2).trans ((W2_of_ne m c b h1).trans (V1_of m c b h0))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => gdat (U1 m) c
  | ⟨1, _⟩ => fun c => ddat (U2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gate / up region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (gate_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region: entered from every unscoped buffer at `W2`, left at `W3`; its invariant
    starts as what the region is handed and gives that back at the end, the scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (down_obligation (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (down_in (U2 m) c)
    unfold Pipeline.ΦA
    iintro ⟨Hp, -, Hr⟩
    isplitl [Hr]; · iexact Hr
    iexact Hp
  hout c := by
    rw [Pipeline.ownSems0_none]
    refine (down_out (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the three segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state has every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The argument arrays end as launched. -/
theorem W3_args (c : Dev nD) :
    W3 m c (Proc.devRef .tc main_arg0) = m ((c : Thread nD τ).loc main_arg0)
    ∧ W3 m c (Proc.devRef .tc main_arg1) = m ((c : Thread nD τ).loc main_arg1)
    ∧ W3 m c (Proc.devRef .tc main_arg2) = m ((c : Thread nD τ).loc main_arg2)
    ∧ W3 m c (Proc.devRef .tc main_arg3) = m ((c : Thread nD τ).loc main_arg3)
    ∧ W3 m c (Proc.devRef .tc main_arg4) = m ((c : Thread nD τ).loc main_arg4)
    ∧ W3 m c (Proc.devRef .tc main_arg5) = m ((c : Thread nD τ).loc main_arg5)
    ∧ W3 m c (Proc.devRef .tc main_arg6) = m ((c : Thread nD τ).loc main_arg6) :=
  ⟨W3_kept m c main_arg0 (by decide) (by decide) (by decide), W3_kept m c main_arg1 (by decide) (by decide) (by decide),
   W3_kept m c main_arg2 (by decide) (by decide) (by decide), W3_kept m c main_arg3 (by decide) (by decide) (by decide),
   W3_kept m c main_arg4 (by decide) (by decide) (by decide), W3_kept m c main_arg5 (by decide) (by decide) (by decide),
   W3_kept m c main_arg6 (by decide) (by decide) (by decide)⟩

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_args m c).1,
     (h c _ (mem_uc main_arg1 (by decide))).trans (W3_args m c).2.1,
     (h c _ (mem_uc main_arg2 (by decide))).trans (W3_args m c).2.2.1,
     (h c _ (mem_uc main_arg3 (by decide))).trans (W3_args m c).2.2.2.1,
     (h c _ (mem_uc main_arg4 (by decide))).trans (W3_args m c).2.2.2.2.1,
     (h c _ (mem_uc main_arg5 (by decide))).trans (W3_args m c).2.2.2.2.2.1,
     (h c _ (mem_uc main_arg6 (by decide))).trans (W3_args m c).2.2.2.2.2.2⟩) (run_all m ρ)

end Cert.Kernel.Hand

end
-- ==== Proof.IGateUp.lean ====
/-
  The first kernel region of the program: the fused gate / up projections. Its grid has 8 × 11 points;
  point (i, j) reads rows [1024·i, 1024·(i+1)) of the token matrix and rows [512·j, 512·(j+1)) of the two
  rescaled weight matrices, and writes the [1024, 512] tile (i, j) of the hidden activation — one store of
  one payload, a pure function of the three blocks read. Stated at a PARAMETER `V`, the buffer contents
  the region is entered with, for any float instance: what each window's staging buffer holds before the
  body (its block of the array, fetched at this point or kept from the point before), what the body leaves
  (the inputs untouched, the output tile the payload of the three blocks), and that the body run on these
  is the pipeline's obligation at every point. Nothing is carried from point to point.
-/
import proofs.«110734_j13889924235944_1_alg».proof.Proof.Gen.KernelIdeal.Launch
import proofs.«110734_j13889924235944_1_alg».proof.Proof.Gen.KernelIdeal.Skeleton
import proofs.«110734_j13889924235944_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def gblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body -/

/-- The one rectangle the body stores through: the whole output tile. -/
abbrev gr : Rect S1024x512 := Rect.unit (s := S1024x512) ![0, 0] S1024x512.size inb_S1024x512_S1024x512_0_0
abbrev grx : Rect S1024x2048 := Rect.unit (s := S1024x2048) ![0, 0] S1024x2048.size inb_S1024x2048_S1024x2048_0_0
abbrev grw : Rect S512x2048 := Rect.unit (s := S512x2048) ![0, 0] S512x2048.size inb_S512x2048_S512x2048_0_0

/-- What the body leaves in the output tile's staging buffer, from the three blocks read. -/
def gout (x0 : Vec F S1024x2048 .bf16) (x1 x2 : Vec F S512x2048 .bf16) : Vec F S1024x512 .bf16 :=
  View.canon [⟨gr, k0_pay1 (View.ld x0 grx) (View.ld x1 grw) (View.ld x2 grw)⟩]

/-- The store covers the tile. -/
theorem gcover (p0 : Vec F S1024x512 .bf16) (y : S1024x512.Idx) :
    ∃ pc ∈ ([⟨gr, p0⟩] : List (View.Piece (Elt F) S1024x512 .bf16)), y ∈ pc.1.set :=
  View.cover_of_tiled [⟨gr, p0⟩] S1024x512.size (by rfl) y

set_option maxHeartbeats 1000000 in
/-- The body on whole staging buffers — the inputs' at contents `x0 x1 x2`, the output's at anything —
    runs to the end with the inputs' as they were and the output's at `gout x0 x1 x2`. -/
theorem gate_kernel (c : Dev nD) (E : Set ℕ) (i : grid0.Coords)
    (arg2 : Memref sig .tc .vmem S1024x2048 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S1024x512 .bf16) (harg5 : arg5.IsWhole)
    (x0 : Vec F S1024x2048 .bf16) (x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (gout x0 x1 x2)) -∗ K ⟨⟩))
      ⊢ wp frame (wpE (defs₀ (F := F)) Variants.none c none) E (cc0_gate_up_kernel i arg2 harg2 arg3 harg3 arg4 harg4 arg5 harg5) K := by
  simp only [cc0_gate_up_kernel_eq_skeleton]; unfold cc0_gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gcover _)

/-! ## The proof data -/

/-- The region's proof data on core `c`: the arrays as entered; after the body each input's buffer at its
    block and the output's at `gout` of the three blocks; the invariant the scoped buffers no window of this
    region stages and the generator register, untouched; nothing owed. -/
def gdat (c : Dev nD) : Dat τ (Elt F) Unit ℕ (UR sig nD τ) ℕ cfg0 c where
  A w := V c (Pipeline.arrRef spec0 w)
  after w t := match w with
    | ⟨0, _⟩ => gblk V c 0 t
    | ⟨1, _⟩ => gblk V c 1 t
    | ⟨2, _⟩ => gblk V c 2 t
    | ⟨3, _⟩ => gout (gblk V c 0 t) (gblk V c 1 t) (gblk V c 2 t)
  Φ _ := Pipeline.ΦA spec0 c
  q _ := fullShare
  owed _ := 0

theorem gA_eq (c : Dev nD) (w : Fin cfg0.W) : (gdat V c).A w = V c (Pipeline.arrRef spec0 w) := by
  dsimp only [gdat]

theorem gafter_0 (c : Dev nD) (t : Fin cfg0.N) : (gdat V c).after 0 t = gblk V c 0 t := by dsimp only [gdat]
theorem gafter_1 (c : Dev nD) (t : Fin cfg0.N) : (gdat V c).after 1 t = gblk V c 1 t := by dsimp only [gdat]
theorem gafter_2 (c : Dev nD) (t : Fin cfg0.N) : (gdat V c).after 2 t = gblk V c 2 t := by dsimp only [gdat]
theorem gafter_3 (c : Dev nD) (t : Fin cfg0.N) :
    (gdat V c).after 3 t = gout (gblk V c 0 t) (gblk V c 1 t) (gblk V c 2 t) := by dsimp only [gdat]

/-- Input window 0's staging buffer holds the window's block at every point, fetched there or kept from the
    point before (the block index has not moved), the window uncut and never idle. -/
theorem gbefore_0 (c : Dev nD) (t : Fin cfg0.N) (d) : (gdat V c).before 0 t d = gblk V c 0 t :=
  ((gdat V c).before_in_eq_fetched 0 rfl (fun _ => rfl) (fun _ _ _ => rfl)
    (fun t => by rw [gafter_0]; unfold Dat.blockOf gblk; rw [gA_eq]; try rfl) t d).trans
    (by unfold Dat.fetched Dat.blockOf gblk; rw [gA_eq]; try rfl)
/-- Input window 1's staging buffer holds the window's block at every point, fetched there or kept from the
    point before (the block index has not moved), the window uncut and never idle. -/
theorem gbefore_1 (c : Dev nD) (t : Fin cfg0.N) (d) : (gdat V c).before 1 t d = gblk V c 1 t :=
  ((gdat V c).before_in_eq_fetched 1 rfl (fun _ => rfl) (fun _ _ _ => rfl)
    (fun t => by rw [gafter_1]; unfold Dat.blockOf gblk; rw [gA_eq]; try rfl) t d).trans
    (by unfold Dat.fetched Dat.blockOf gblk; rw [gA_eq]; try rfl)
/-- Input window 2's staging buffer holds the window's block at every point, fetched there or kept from the
    point before (the block index has not moved), the window uncut and never idle. -/
theorem gbefore_2 (c : Dev nD) (t : Fin cfg0.N) (d) : (gdat V c).before 2 t d = gblk V c 2 t :=
  ((gdat V c).before_in_eq_fetched 2 rfl (fun _ => rfl) (fun _ _ _ => rfl)
    (fun t => by rw [gafter_2]; unfold Dat.blockOf gblk; rw [gA_eq]; try rfl) t d).trans
    (by unfold Dat.fetched Dat.blockOf gblk; rw [gA_eq]; try rfl)

/-! ## The body obligation -/

def gpre (c : Dev nD) (t : Fin cfg0.N) : sProp 𝕄 :=
  iprop((gdat V c).Φ t.castSucc ∗ (gdat V c).owesAt () t.castSucc
    ∗ (∃ d, owns (c : Thread nD τ) (st0_0 t) fullShare ((gdat V c).before 0 t d))
    ∗ (∃ d, owns (c : Thread nD τ) (st0_1 t) fullShare ((gdat V c).before 1 t d))
    ∗ (∃ d, owns (c : Thread nD τ) (st0_2 t) fullShare ((gdat V c).before 2 t d))
    ∗ (∃ d, owns (c : Thread nD τ) (st0_3 t) fullShare ((gdat V c).before 3 t d)))

def gpost (c : Dev nD) (t : Fin cfg0.N) : sProp 𝕄 :=
  iprop((gdat V c).Φ t.succ ∗ (gdat V c).owesAt () t.succ
    ∗ owns (c : Thread nD τ) (st0_0 t) fullShare ((gdat V c).after 0 t)
    ∗ owns (c : Thread nD τ) (st0_1 t) fullShare ((gdat V c).after 1 t)
    ∗ owns (c : Thread nD τ) (st0_2 t) fullShare ((gdat V c).after 2 t)
    ∗ owns (c : Thread nD τ) (st0_3 t) fullShare ((gdat V c).after 3 t))

/-- The body at any point: the inputs' buffers hold their blocks, so `gate_kernel` applies; the invariant and
    the core's dues pass through unread. -/
theorem gate_body (c : Dev nD) (t : Fin cfg0.N) :
    gpre V c t ⊢ wp frame (wpE (defs₀ (F := F)) Variants.none c none) Set.univ (bodyAt0 t) (fun _ => gpost V c t) := by
  unfold gpre gpost bodyAt0
  simp only [gbefore_0, gbefore_1, gbefore_2]
  rw [show (gdat V c).Φ t.succ = (gdat V c).Φ t.castSucc from rfl,
    show (gdat V c).owesAt () t.succ = (gdat V c).owesAt () t.castSucc from rfl,
    gafter_0, gafter_1, gafter_2, gafter_3]
  iintro ⟨HΦ, Ho, ⟨%d0, H0⟩, ⟨%d1, H1⟩, ⟨%d2, H2⟩, ⟨%d3, H3⟩⟩
  iapply (gate_kernel c Set.univ _ _ _ _ _ _ _ _ _ (gblk V c 0 t) (gblk V c 1 t) (gblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem gate_obligation (c : Dev nD) : BodyObligation (gdat (F := F) V c) (defs₀ (F := F)) Variants.none () Set.univ := fun t => by
  rw [bigSep_W0, bigSep_W0]
  exact gate_body V c t

end Cert.KernelIdeal.Hand

end
-- ==== Proof.IDownRun.lean ====
/-
  The second kernel region: the down projection, accumulated over the hidden axis. Its grid has
  8 × 2 × 11 points (i, j, k), k innermost. Point (i, j, k) reads the [1024, 512] tile (i, k) of the
  hidden activation and the tile (j, k) of the rescaled down weights. A scratch buffer of the kernel's own
  carries the running [1024, 1024] sum from point to point: at k = 0 it is first cleared; at every point
  the product of the two tiles (contracted over their 512 columns) is added to it; at k = 10 it is copied
  into the output tile (i, j), which the pipeline writes back at those points only — elsewhere the
  output window is idle and its buffer goes back as it came.
  Three cases by the two conditions on k (first, last; 11 steps, so never both). Per case the body's run,
  with what it leaves in the scratch and in the output tile as the pieces its stores write; then the
  contents after each point by recursion on the point (`dacc`), the region's invariant — the scratch at
  what the point before left, the other scoped buffers and the generator register untouched —, the proof
  data and the pipeline's obligation. Stated at a PARAMETER `V` (the contents the region is entered
  with), for any float instance.
-/
import proofs.«110734_j13889924235944_1_alg».proof.Proof.Gen.KernelIdeal.Launch
import proofs.«110734_j13889924235944_1_alg».proof.Proof.Gen.KernelIdeal.Skeleton
import proofs.«110734_j13889924235944_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the innermost grid coordinate -/

/-- "k = 0", as the body computes it. -/
abbrev kFirst (i : grid1.Coords) : Prop :=
  (Scalar.cmpi .ne (Scalar.extui (Scalar.cmpi .eq (BitVec.ofNat 32 (i 2).val) 0#32)) 0#32) = 1#1
/-- It holds at the points ≡ 0 (mod 11). -/
theorem kFirst_iff : ∀ t : Fin cfg1.N, kFirst (grid1.coords t) ↔ t.val % 11 = 0 :=
  (by decide +kernel : ∀ t : Fin grid1.N, kFirst (grid1.coords t) ↔ t.val % 11 = 0)
/-- "k = 10", as the body computes it. -/
abbrev kLast (i : grid1.Coords) : Prop := k1_cond2 i = 1#1
/-- It holds at the points ≡ 10 (mod 11). -/
theorem kLast_iff : ∀ t : Fin cfg1.N, kLast (grid1.coords t) ↔ t.val % 11 = 10 :=
  (by decide +kernel : ∀ t : Fin grid1.N, kLast (grid1.coords t) ↔ t.val % 11 = 10)

/-- The input windows are never idle. -/
theorem dlive_0 : ∀ t : Fin cfg1.N, cfg1.idle 0 (grid1.coords t) = false := by decide +kernel
theorem dlive_1 : ∀ t : Fin cfg1.N, cfg1.idle 1 (grid1.coords t) = false := by decide +kernel
/-- Away from k = 10 the output window is idle and not written back; at k = 10 it is live. -/
theorem didle_2 : ∀ t : Fin cfg1.N, ¬kLast (grid1.coords t) → cfg1.idle 2 (grid1.coords t) = true := by decide +kernel
theorem dnoflush_2 : ∀ t : Fin cfg1.N, ¬kLast (grid1.coords t) → (cfg1.win 2).flush t = false := by decide +kernel
theorem dlive_2 : ∀ t : Fin cfg1.N, kLast (grid1.coords t) → cfg1.idle 2 (grid1.coords t) = false := by decide +kernel

/-! ## The memrefs the body is called with -/

abbrev dm0 (t : Fin cfg1.N) : Memref sig .tc .vmem S1024x512 .bf16 := win1_0.stage (cfg1.slots t 0)
abbrev dh0 (t : Fin cfg1.N) : (dm0 t).IsWhole := hstage1_0 ((cfg1.slots t 0).cast nbuf1_0)
abbrev dm1 (t : Fin cfg1.N) : Memref sig .tc .vmem S1024x512 .bf16 := win1_1.stage (cfg1.slots t 1)
abbrev dh1 (t : Fin cfg1.N) : (dm1 t).IsWhole := hstage1_1 ((cfg1.slots t 1).cast nbuf1_1)
abbrev dm2 (t : Fin cfg1.N) : Memref sig .tc .vmem S1024x1024 .f32 := win1_2.stage (cfg1.slots t 2)
abbrev dh2 (t : Fin cfg1.N) : (dm2 t).IsWhole := hstage1_2 ((cfg1.slots t 2).cast nbuf1_2)
/-- The scratch accumulator. -/
abbrev dsc : Memref sig .tc .vmem S1024x1024 .f32 := Memref.whole cc1_scratch0
/-- The views the contents of the output tile and of the scratch are stated through. -/
abbrev dVO : View sig .tc .vmem S1024x1024 .f32 := (Memref.whole cc1_stg2_0 : Memref sig .tc .vmem S1024x1024 .f32).view
abbrev dVS : View sig .tc .vmem S1024x1024 .f32 := dsc.view

/-! ## The body's run, case by case -/

set_option maxHeartbeats 4000000 in
/-- k = 0 (and not 10): the scratch, found at anything, is cleared and the tiles' product added; the output
    tile's buffer is not touched. The pieces the scratch ends with are the run's witness. -/
noncomputable def drunA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- 0 < k < 10: the tiles' product is added to the scratch, found at `xs`; the output tile's buffer is not
    touched. -/
noncomputable def drunB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xs
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2
    obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- k = 10: the tiles' product is added to the scratch, found at `xs`, and the scratch is copied into the
    output tile's buffer, found at anything. -/
noncomputable def drunC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) :
    Σ' (L2 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, ?_, fun E K => ?run⟩
  case run =>
    simp only [cc1_down_kernel_eq_skeleton]; unfold cc1_down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.IDownAcc.lean ====
/-
  The down-projection region, continued: from the three cases' runs to the pipeline's obligation. What the
  scratch accumulator and the output tile's buffer hold after each grid point is a recursion on the point
  (`dacc`): at a point with k = 0 the first case's contents of the two tiles read there, otherwise the
  later cases' contents over what the point before left in the scratch. The region's invariant before point
  `n` keeps the scratch at `dacc (n - 1)` (before the first point: at anything, as the region finds it)
  beside the other scoped buffers and the generator register, which the body never touches.
-/
import proofs.«110734_j13889924235944_1_alg».proof.Proof.IDownRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def dblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves -/

theorem dcoverA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) (y : S1024x1024.Idx) :
    ∃ pc ∈ (drunA c i arg3 harg3 arg4 harg4 arg5 harg5 arg6 harg6 hc0 hc1 x0 x1).1, y ∈ pc.1.set :=
  View.cover_of_tiledL (drunA c i arg3 harg3 arg4 harg4 arg5 harg5 arg6 harg6 hc0 hc1 x0 x1).1 S1024x1024.size (by sl_kernel_rfl) y

/-- The scratch after a point with k = 0. -/
def dsoutA (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) : Vec F S1024x1024 .f32 :=
  dVS.read (Elt F) (dVS.writes (Elt F) dVS.junk (drunA c i arg3 harg3 arg4 harg4 arg5 harg5 arg6 harg6 hc0 hc1 x0 x1).1)

theorem dcoverB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) (y : S1024x1024.Idx) :
    ∃ pc ∈ (drunB c i arg3 harg3 arg4 harg4 arg5 harg5 arg6 harg6 hc0 hc1 x0 x1 xs).1, y ∈ pc.1.set :=
  View.cover_of_tiledL (drunB c i arg3 harg3 arg4 harg4 arg5 harg5 arg6 harg6 hc0 hc1 x0 x1 xs).1 S1024x1024.size (by sl_kernel_rfl) y

/-- The scratch after a point with 0 < k < 10. -/
def dsoutB (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) : Vec F S1024x1024 .f32 :=
  dVS.read (Elt F) (dVS.writes (Elt F) dVS.junk (drunB c i arg3 harg3 arg4 harg4 arg5 harg5 arg6 harg6 hc0 hc1 x0 x1 xs).1)

theorem dcoverC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) (y : S1024x1024.Idx) :
    ∃ pc ∈ (drunC c i arg3 harg3 arg4 harg4 arg5 harg5 arg6 harg6 hc0 hc1 x0 x1 xs).2.1, y ∈ pc.1.set :=
  View.cover_of_tiledL (drunC c i arg3 harg3 arg4 harg4 arg5 harg5 arg6 harg6 hc0 hc1 x0 x1 xs).2.1 S1024x1024.size (by sl_kernel_rfl) y

/-- The scratch after a point with k = 10. -/
def dsoutC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) : Vec F S1024x1024 .f32 :=
  dVS.read (Elt F) (dVS.writes (Elt F) dVS.junk (drunC c i arg3 harg3 arg4 harg4 arg5 harg5 arg6 harg6 hc0 hc1 x0 x1 xs).2.1)

theorem dcoverO (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) (y : S1024x1024.Idx) :
    ∃ pc ∈ (drunC c i arg3 harg3 arg4 harg4 arg5 harg5 arg6 harg6 hc0 hc1 x0 x1 xs).1, y ∈ pc.1.set :=
  View.cover_of_tiledL (drunC c i arg3 harg3 arg4 harg4 arg5 harg5 arg6 harg6 hc0 hc1 x0 x1 xs).1 S1024x1024.size (by sl_kernel_rfl) y

/-- The output tile's buffer after a point with k = 10. -/
def doutC (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) : Vec F S1024x1024 .f32 :=
  dVO.read (Elt F) (dVO.writes (Elt F) dVO.junk (drunC c i arg3 harg3 arg4 harg4 arg5 harg5 arg6 harg6 hc0 hc1 x0 x1 xs).1)

/-! ## The contents after each point -/

/-- What the output tile's buffer (first component; meaningful at the points with k = 10 only, elsewhere the
    window is idle and the component is never consulted) and the scratch (second component) hold after the
    body at position `n`. -/
def dacc (c : Dev nD) : (n : ℕ) → n < cfg1.N → Vec F S1024x1024 .f32 × Vec F S1024x1024 .f32
  | 0, hn =>
    (dsoutA c (grid1.coords ⟨0, hn⟩) (dm0 ⟨0, hn⟩) (dh0 ⟨0, hn⟩) (dm1 ⟨0, hn⟩) (dh1 ⟨0, hn⟩) (dm2 ⟨0, hn⟩) (dh2 ⟨0, hn⟩) dsc (Memref.isWhole_whole _)
      ((kFirst_iff ⟨0, hn⟩).mpr (Nat.zero_mod _)) (fun h => (fun h => by (try dsimp only at h); omega) ((kLast_iff ⟨0, hn⟩).mp h))
      (dblk V c 0 ⟨0, hn⟩) (dblk V c 1 ⟨0, hn⟩),
     dsoutA c (grid1.coords ⟨0, hn⟩) (dm0 ⟨0, hn⟩) (dh0 ⟨0, hn⟩) (dm1 ⟨0, hn⟩) (dh1 ⟨0, hn⟩) (dm2 ⟨0, hn⟩) (dh2 ⟨0, hn⟩) dsc (Memref.isWhole_whole _)
      ((kFirst_iff ⟨0, hn⟩).mpr (Nat.zero_mod _)) (fun h => (fun h => by (try dsimp only at h); omega) ((kLast_iff ⟨0, hn⟩).mp h))
      (dblk V c 0 ⟨0, hn⟩) (dblk V c 1 ⟨0, hn⟩))
  | n + 1, hn =>
    if h0 : (n + 1) % 11 = 0 then
      if h1 : (n + 1) % 11 = 10 then
        False.elim (by omega)
      else
        (dsoutA c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          ((kFirst_iff ⟨n + 1, hn⟩).mpr h0) (fun h => h1 ((kLast_iff ⟨n + 1, hn⟩).mp h))
          (dblk V c 0 ⟨n + 1, hn⟩) (dblk V c 1 ⟨n + 1, hn⟩),
         dsoutA c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          ((kFirst_iff ⟨n + 1, hn⟩).mpr h0) (fun h => h1 ((kLast_iff ⟨n + 1, hn⟩).mp h))
          (dblk V c 0 ⟨n + 1, hn⟩) (dblk V c 1 ⟨n + 1, hn⟩))
    else
      if h1 : (n + 1) % 11 = 10 then
        (doutC c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) ((kLast_iff ⟨n + 1, hn⟩).mpr h1)
          (dblk V c 0 ⟨n + 1, hn⟩) (dblk V c 1 ⟨n + 1, hn⟩) (dacc c n (Nat.lt_of_succ_lt hn)).2,
         dsoutC c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) ((kLast_iff ⟨n + 1, hn⟩).mpr h1)
          (dblk V c 0 ⟨n + 1, hn⟩) (dblk V c 1 ⟨n + 1, hn⟩) (dacc c n (Nat.lt_of_succ_lt hn)).2)
      else
        (dsoutB c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) (fun h => h1 ((kLast_iff ⟨n + 1, hn⟩).mp h))
          (dblk V c 0 ⟨n + 1, hn⟩) (dblk V c 1 ⟨n + 1, hn⟩) (dacc c n (Nat.lt_of_succ_lt hn)).2,
         dsoutB c (grid1.coords ⟨n + 1, hn⟩) (dm0 ⟨n + 1, hn⟩) (dh0 ⟨n + 1, hn⟩) (dm1 ⟨n + 1, hn⟩) (dh1 ⟨n + 1, hn⟩) (dm2 ⟨n + 1, hn⟩) (dh2 ⟨n + 1, hn⟩) dsc (Memref.isWhole_whole _)
          (fun h => h0 ((kFirst_iff ⟨n + 1, hn⟩).mp h)) (fun h => h1 ((kLast_iff ⟨n + 1, hn⟩).mp h))
          (dblk V c 0 ⟨n + 1, hn⟩) (dblk V c 1 ⟨n + 1, hn⟩) (dacc c n (Nat.lt_of_succ_lt hn)).2)

/-- `dacc` at a point with k = 0. -/
theorem dacc_A (c : Dev nD) (t : Fin cfg1.N) (h0 : t.val % 11 = 0) (h1 : ¬t.val % 11 = 10) :
    dacc V c t.val t.isLt = (dsoutA c (grid1.coords t) (dm0 t) (dh0 t) (dm1 t) (dh1 t) (dm2 t) (dh2 t) dsc (Memref.isWhole_whole _)
      ((kFirst_iff t).mpr h0) (fun h => h1 ((kLast_iff t).mp h)) (dblk V c 0 t) (dblk V c 1 t),
      dsoutA c (grid1.coords t) (dm0 t) (dh0 t) (dm1 t) (dh1 t) (dm2 t) (dh2 t) dsc (Memref.isWhole_whole _)
      ((kFirst_iff t).mpr h0) (fun h => h1 ((kLast_iff t).mp h)) (dblk V c 0 t) (dblk V c 1 t)) := by
  obtain ⟨n, hn⟩ := t
  cases n with
  | zero => exact rfl
  | succ n => exact (dif_pos h0).trans ((dif_neg h1).trans rfl)

/-- `dacc` at a point with 0 < k < 10: over what the point before left. -/
theorem dacc_B (c : Dev nD) (t : Fin cfg1.N) (h0 : ¬t.val % 11 = 0) (h1 : ¬t.val % 11 = 10) :
    dacc V c t.val t.isLt = (dsoutB c (grid1.coords t) (dm0 t) (dh0 t) (dm1 t) (dh1 t) (dm2 t) (dh2 t) dsc (Memref.isWhole_whole _)
      (fun h => h0 ((kFirst_iff t).mp h)) (fun h => h1 ((kLast_iff t).mp h)) (dblk V c 0 t) (dblk V c 1 t)
      (dacc V c (t.val - 1) (Nat.lt_of_le_of_lt (Nat.sub_le _ _) t.isLt)).2,
      dsoutB c (grid1.coords t) (dm0 t) (dh0 t) (dm1 t) (dh1 t) (dm2 t) (dh2 t) dsc (Memref.isWhole_whole _)
      (fun h => h0 ((kFirst_iff t).mp h)) (fun h => h1 ((kLast_iff t).mp h)) (dblk V c 0 t) (dblk V c 1 t)
      (dacc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `dacc` at a point with k = 10: over what the point before left. -/
theorem dacc_C (c : Dev nD) (t : Fin cfg1.N) (h0 : ¬t.val % 11 = 0) (h1 : t.val % 11 = 10) :
    dacc V c t.val t.isLt = (doutC c (grid1.coords t) (dm0 t) (dh0 t) (dm1 t) (dh1 t) (dm2 t) (dh2 t) dsc (Memref.isWhole_whole _)
      (fun h => h0 ((kFirst_iff t).mp h)) ((kLast_iff t).mpr h1) (dblk V c 0 t) (dblk V c 1 t)
      (dacc V c (t.val - 1) (Nat.lt_of_le_of_lt (Nat.sub_le _ _) t.isLt)).2,
      dsoutC c (grid1.coords t) (dm0 t) (dh0 t) (dm1 t) (dh1 t) (dm2 t) (dh2 t) dsc (Memref.isWhole_whole _)
      (fun h => h0 ((kFirst_iff t).mp h)) ((kLast_iff t).mpr h1) (dblk V c 0 t) (dblk V c 1 t)
      (dacc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Hand

end
-- ==== Proof.IDownBody.lean ====
/-
  The down-projection region, concluded: the invariant, the proof data and the pipeline's obligation.
  Before the first point the invariant is what a region is handed — every scoped buffer no window of this
  region stages at some contents, the generator register at some state; before point `n + 1` it has the
  scratch accumulator at `dacc n`'s scratch component, the rest as before. The body at a point is the
  run of the case the point is in: the inputs' buffers hold their blocks, the scratch what the invariant
  says, the output tile's buffer goes back untouched (idle) or filled from the scratch (k = 10).
-/
import proofs.«110734_j13889924235944_1_alg».proof.Proof.IDownAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that this region neither stages nor uses (the first region's staging
    buffers), each at some contents, and the generator register at some state. -/
def dRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ r, prngReg c r))

/-- What the region is handed splits into the scratch at some contents and the rest. -/
theorem dPhiA_split (c : Dev nD) :
    (Pipeline.ΦA spec1 c : sProp 𝕄) ⊢ iprop((∃ d, owns (c : Thread nD τ) dsc fullShare d) ∗ dRest (F := F) c) := by
  unfold Pipeline.ΦA dRest; rw [scopedRest1_eq]; simp only [dsc, owns_whole]
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- And back. -/
theorem dPhiA_join (c : Dev nD) :
    iprop((∃ d, owns (c : Thread nD τ) dsc fullShare d) ∗ dRest (F := F) c) ⊢ (Pipeline.ΦA spec1 c : sProp 𝕄) := by
  unfold Pipeline.ΦA dRest; rw [scopedRest1_eq]; simp only [dsc, owns_whole]
  iintro ⟨HS, H0, H1, H2, H3, H4, H5, H6, H7, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The region's invariant before position `n`. -/
def dPhi (c : Dev nD) : (n : ℕ) → n ≤ cfg1.N → sProp 𝕄
  | 0, _ => Pipeline.ΦA spec1 c
  | n + 1, hn => iprop(owns (c : Thread nD τ) dsc fullShare ((dacc V c n hn).2) ∗ dRest (F := F) c)

theorem dPhi_zero (c : Dev nD) (n : ℕ) (h : n ≤ cfg1.N) (hz : n = 0) : dPhi V c n h = Pipeline.ΦA spec1 c := by
  subst hz; rfl

theorem dPhi_succ (c : Dev nD) (n : ℕ) (hn : n < cfg1.N) :
    dPhi V c (n + 1) hn = iprop(owns (c : Thread nD τ) dsc fullShare ((dacc V c n hn).2) ∗ dRest (F := F) c) := rfl

theorem dPhi_pos (c : Dev nD) (n : ℕ) (h : n ≤ cfg1.N) (hz : n ≠ 0) :
    dPhi V c n h = iprop(owns (c : Thread nD τ) dsc fullShare ((dacc V c (n - 1) (by omega)).2) ∗ dRest (F := F) c) := by
  cases n with
  | zero => exact absurd rfl hz
  | succ n => rfl

/-! ## The proof data -/

/-- The region's proof data on core `c`: the arrays as entered; after the body each input's buffer at its
    block, the output tile's at `dacc`'s first component; the invariant `dPhi`; nothing owed. -/
def ddat (c : Dev nD) : Dat τ (Elt F) Unit ℕ (UR sig nD τ) ℕ cfg1 c where
  A w := V c (Pipeline.arrRef spec1 w)
  after w t := match w with
    | ⟨0, _⟩ => dblk V c 0 t
    | ⟨1, _⟩ => dblk V c 1 t
    | ⟨2, _⟩ => (dacc V c t.val t.isLt).1
  Φ t := dPhi V c t.val (Nat.le_of_lt_succ t.isLt)
  q _ := fullShare
  owed _ := 0

theorem dA_eq (c : Dev nD) (w : Fin cfg1.W) : (ddat V c).A w = V c (Pipeline.arrRef spec1 w) := by
  dsimp only [ddat]

theorem dPhi_castSucc (c : Dev nD) (t : Fin cfg1.N) :
    (ddat V c).Φ t.castSucc = dPhi V c t.val (Nat.le_of_lt t.isLt) := by
  dsimp only [ddat]; simp only [Fin.coe_castSucc]

theorem dafter_0 (c : Dev nD) (t : Fin cfg1.N) : (ddat V c).after 0 t = dblk V c 0 t := by dsimp only [ddat]
theorem dafter_1 (c : Dev nD) (t : Fin cfg1.N) : (ddat V c).after 1 t = dblk V c 1 t := by dsimp only [ddat]
theorem dafter_2 (c : Dev nD) (t : Fin cfg1.N) : (ddat V c).after 2 t = (dacc V c t.val t.isLt).1 := by dsimp only [ddat]

/-- An input window's staging buffer holds the window's block at every point. -/
theorem dbefore_0 (c : Dev nD) (t : Fin cfg1.N) (d) : (ddat V c).before 0 t d = dblk V c 0 t :=
  ((ddat V c).before_in_eq_fetched 0 rfl (fun _ => rfl) (fun _ _ _ => rfl)
    (fun t => by rw [dafter_0]; unfold Dat.blockOf dblk; rw [dA_eq]; try rfl) t d).trans
    (by unfold Dat.fetched Dat.blockOf dblk; rw [dA_eq]; try rfl)
theorem dbefore_1 (c : Dev nD) (t : Fin cfg1.N) (d) : (ddat V c).before 1 t d = dblk V c 1 t :=
  ((ddat V c).before_in_eq_fetched 1 rfl (fun _ => rfl) (fun _ _ _ => rfl)
    (fun t => by rw [dafter_1]; unfold Dat.blockOf dblk; rw [dA_eq]; try rfl) t d).trans
    (by unfold Dat.fetched Dat.blockOf dblk; rw [dA_eq]; try rfl)

/-! ## The body obligation -/

def dpre (c : Dev nD) (t : Fin cfg1.N) : sProp 𝕄 :=
  iprop((ddat V c).Φ t.castSucc ∗ (ddat V c).owesAt () t.castSucc
    ∗ (∃ d, owns (c : Thread nD τ) (dm0 t) fullShare ((ddat V c).before 0 t d))
    ∗ (∃ d, owns (c : Thread nD τ) (dm1 t) fullShare ((ddat V c).before 1 t d))
    ∗ (∃ d, owns (c : Thread nD τ) (dm2 t) fullShare ((ddat V c).before 2 t d)))

def dpost (c : Dev nD) (t : Fin cfg1.N) : sProp 𝕄 :=
  iprop((ddat V c).Φ t.succ ∗ (ddat V c).owesAt () t.succ
    ∗ (ddat V c).leavesExact 0 t
    ∗ (ddat V c).leavesExact 1 t
    ∗ (ddat V c).leavesExact 2 t)

set_option maxHeartbeats 4800000 in
/-- The body at any point, by the case the point is in. -/
theorem down_body (c : Dev nD) (t : Fin cfg1.N) :
    dpre V c t ⊢ wp frame (wpE (defs₀ (F := F)) Variants.none c none) Set.univ (bodyAt1 t) (fun _ => dpost V c t) := by
  unfold dpre dpost bodyAt1
  simp only [dbefore_0, dbefore_1]
  rw [show (ddat V c).owesAt () t.succ = (ddat V c).owesAt () t.castSucc from rfl]
  rw [show (ddat V c).Φ t.succ = dPhi V c (t.val + 1) t.isLt from rfl, dPhi_succ]
  rw [show (ddat V c).leavesExact 0 t = owns (c : Thread nD τ) (dm0 t) fullShare ((ddat V c).after 0 t) from by
    unfold Dat.leavesExact; rw [dlive_0 t], dafter_0]
  rw [show (ddat V c).leavesExact 1 t = owns (c : Thread nD τ) (dm1 t) fullShare ((ddat V c).after 1 t) from by
    unfold Dat.leavesExact; rw [dlive_1 t], dafter_1]
  have hN : t.val < 176 := lt_of_lt_of_eq t.isLt (show cfg1.N = 176 from N_1)
  by_cases h0 : t.val % 11 = 0
  · have h1 : ¬t.val % 11 = 10 := by omega
    rw [Dat.leavesExact_idle (ddat V c) 2 t (didle_2 t (fun h => h1 ((kLast_iff t).mp h))) (dnoflush_2 t (fun h => h1 ((kLast_iff t).mp h)))]
    rw [dacc_A V c t h0 h1]
    unfold dsoutA; (try dsimp only)
    by_cases hz : t.val = 0
    · rw [dPhi_castSucc V c t, dPhi_zero V c _ _ hz]
      iintro ⟨HΦ, Ho, ⟨%d0, H0⟩, ⟨%d1, H1⟩, ⟨%d2, H2⟩⟩
      ihave HΦ' := (dPhiA_split (F := F) c) $$ HΦ
      icases HΦ' with ⟨HS, HR⟩
      iapply ((drunA c (grid1.coords t) _ _ _ _ _ _ _ _ ((kFirst_iff t).mpr h0) (fun h => h1 ((kLast_iff t).mp h)) (dblk V c 0 t) (dblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverA c _ _ _ _ _ _ _ _ _ _ _ _ _)
        iexact HR
      isplitl [Ho]; · iexact Ho
      isplitl [H0]; · iexact H0
      isplitl [H1]; · iexact H1
      iexists _; iexact H2
    · rw [dPhi_castSucc V c t, dPhi_pos V c _ _ hz]
      iintro ⟨⟨HS, HR⟩, Ho, ⟨%d0, H0⟩, ⟨%d1, H1⟩, ⟨%d2, H2⟩⟩
      iapply ((drunA c (grid1.coords t) _ _ _ _ _ _ _ _ ((kFirst_iff t).mpr h0) (fun h => h1 ((kLast_iff t).mp h)) (dblk V c 0 t) (dblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverA c _ _ _ _ _ _ _ _ _ _ _ _ _)
        iexact HR
      isplitl [Ho]; · iexact Ho
      isplitl [H0]; · iexact H0
      isplitl [H1]; · iexact H1
      iexists _; iexact H2
  · have hz : t.val ≠ 0 := fun e => h0 (by rw [e])
    by_cases h1 : t.val % 11 = 10
    · rw [show (ddat V c).leavesExact 2 t = owns (c : Thread nD τ) (dm2 t) fullShare ((ddat V c).after 2 t) from by
        unfold Dat.leavesExact; rw [dlive_2 t ((kLast_iff t).mpr h1)], dafter_2]
      rw [dacc_C V c t h0 h1]
      unfold doutC dsoutC; (try dsimp only)
      rw [dPhi_castSucc V c t, dPhi_pos V c _ _ hz]
      iintro ⟨⟨HS, HR⟩, Ho, ⟨%d0, H0⟩, ⟨%d1, H1⟩, ⟨%d2, H2⟩⟩
      iapply ((drunC c (grid1.coords t) _ _ _ _ _ _ _ _ (fun h => h0 ((kFirst_iff t).mp h)) ((kLast_iff t).mpr h1) (dblk V c 0 t) (dblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · isplitl [HS]
        · unfold owns; iexists _; isplitr
          swap; · iexact HS
          ipureintro; exact View.read_writes_of_cover _ _ _ _ _ (dcoverC c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (dcoverO c _ _ _ _ _ _ _ _ _ _ _ _ _ _)
    · rw [Dat.leavesExact_idle (ddat V c) 2 t (didle_2 t (fun h => h1 ((kLast_iff t).mp h))) (dnoflush_2 t (fun h => h1 ((kLast_iff t).mp h)))]
      rw [dacc_B V c t h0 h1]
      unfold dsoutB; (try dsimp only)
      rw [dPhi_castSucc V c t, dPhi_pos V c _ _ hz]
      iintro ⟨⟨HS, HR⟩, Ho, ⟨%d0, H0⟩, ⟨%d1, H1⟩, ⟨%d2, H2⟩⟩
      iapply ((drunB c (grid1.coords t) _ _ _ _ _ _ _ _ (fun h => h0 ((kFirst_iff t).mp h)) (fun h => h1 ((kLast_iff t).mp h)) (dblk V c 0 t) (dblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (dcoverB c _ _ _ _ _ _ _ _ _ _ _ _ _ _)
        iexact HR
      isplitl [Ho]; · iexact Ho
      isplitl [H0]; · iexact H0
      isplitl [H1]; · iexact H1
      iexists _; iexact H2

/-- The pipeline's body obligation, at every point. -/
theorem down_obligation (c : Dev nD) : BodyObligation (ddat (F := F) V c) (defs₀ (F := F)) Variants.none () Set.univ := fun t => by
  rw [bigSep_W1, bigSep_W1]
  exact down_body V c t

/-- What the region is handed is the invariant before the first point. -/
theorem down_in (c : Dev nD) : (Pipeline.ΦA spec1 c : sProp 𝕄) ⊢ (ddat V c).Φ 0 := by
  rw [show (ddat V c).Φ 0 = dPhi V c 0 (Nat.zero_le _) from rfl, dPhi_zero V c 0 _ rfl]
  try exact Idealize.SL.BI.Entails.refl _

/-- After the last point the invariant gives back what a region hands back: the scratch's contents forgotten. -/
theorem down_out (c : Dev nD) : (ddat V c).Φ (Fin.last cfg1.N) ⊢ (Pipeline.ΦA spec1 c : sProp 𝕄) := by
  have hN : cfg1.N = 176 := N_1
  rw [show (ddat V c).Φ (Fin.last cfg1.N) = dPhi V c (Fin.last cfg1.N).val (Nat.le_of_lt_succ (Fin.last cfg1.N).isLt) from rfl,
    dPhi_pos V c _ _ (by rw [Fin.val_last]; omega)]
  refine .trans ?_ (dPhiA_join (F := F) c)
  iintro ⟨HS, HR⟩
  isplitl [HS]; · iexists _; iexact HS
  iexact HR

end Cert.KernelIdeal.Hand

end
-- ==== Proof.IRun.lean ====
/-
  The whole run of the program: @main is a stretch of host operations (the three weight matrices rescaled
  block by block and rounded, the tokens rounded), the gate / up region, the down-projection region. The
  buffer contents at each boundary are a fold from the launch memory: `W1` after the host stretch, `W2`
  with the first region's arrays at what its write-backs leave (the hidden activation filled tile by
  tile), `W3` likewise after the second (the result filled tile by tile at the points with k = 10).
  Each region is one segment of the several-regions launch: its arrays are split out of the unscoped
  buffers at entry and put back at exit, the generator register and the scoped buffers pass through its
  invariant, nothing is owed between cores. The run's conclusion: every weakly fair execution ends, and
  every unscoped buffer then holds `W3`. The argument arrays are written by no host operation and staged
  by no output window, so `W3` has them as launched.
-/
import proofs.«110734_j13889924235944_1_alg».proof.Proof.IGateUp
import proofs.«110734_j13889924235944_1_alg».proof.Proof.IDownBody
import proofs.«110734_j13889924235944_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
/-- After the host stretch: the first region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the gate / up region: its arrays at what the pipeline leaves, every other buffer as entered. -/
def W2 (c : Dev nD) : Valuation τ sig (Elt F) :=
  Pipeline.withArrays spec0 c (W1 m c) fun w => (gdat (U1 m) c).arrAt w cfg0.N
theorem W2_arr (c : Dev nD) (w : Fin cfg0.W) :
    W2 m c (Proc.devRef .tc (Pipeline.arrRef spec0 w)) = (gdat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (gdat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the down-projection region. -/
def W3 (c : Dev nD) : Valuation τ sig (Elt F) :=
  Pipeline.withArrays spec1 c (W2 m c) fun w => (ddat (U2 m) c).arrAt w cfg1.N
theorem W3_arr (c : Dev nD) (w : Fin cfg1.W) :
    W3 m c (Proc.devRef .tc (Pipeline.arrRef spec1 w)) = (ddat (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (ddat (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- A buffer that no host operation writes and that is no array of either region ends as launched. -/
theorem W3_kept (c : Dev nD) (b : Ref sig .tc) (h0 : b ∉ hostOps0_W) (h1 : ∀ w, Pipeline.arrRef spec0 w ≠ b)
    (h2 : ∀ w, Pipeline.arrRef spec1 w ≠ b) : W3 m c (Proc.devRef .tc b) = m ((c : Thread nD τ).loc b) :=
  (W3_of_ne m c b h2).trans ((W2_of_ne m c b h1).trans (V1_of m c b h0))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => gdat (U1 m) c
  | ⟨1, _⟩ => fun c => ddat (U2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gate / up region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (gate_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region: entered from every unscoped buffer at `W2`, left at `W3`; its invariant
    starts as what the region is handed and gives that back at the end, the scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (down_obligation (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (down_in (U2 m) c)
    unfold Pipeline.ΦA
    iintro ⟨Hp, -, Hr⟩
    isplitl [Hr]; · iexact Hr
    iexact Hp
  hout c := by
    rw [Pipeline.ownSems0_none]
    refine (down_out (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the three segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state has every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The argument arrays end as launched. -/
theorem W3_args (c : Dev nD) :
    W3 m c (Proc.devRef .tc main_arg0) = m ((c : Thread nD τ).loc main_arg0)
    ∧ W3 m c (Proc.devRef .tc main_arg1) = m ((c : Thread nD τ).loc main_arg1)
    ∧ W3 m c (Proc.devRef .tc main_arg2) = m ((c : Thread nD τ).loc main_arg2)
    ∧ W3 m c (Proc.devRef .tc main_arg3) = m ((c : Thread nD τ).loc main_arg3)
    ∧ W3 m c (Proc.devRef .tc main_arg4) = m ((c : Thread nD τ).loc main_arg4)
    ∧ W3 m c (Proc.devRef .tc main_arg5) = m ((c : Thread nD τ).loc main_arg5)
    ∧ W3 m c (Proc.devRef .tc main_arg6) = m ((c : Thread nD τ).loc main_arg6) :=
  ⟨W3_kept m c main_arg0 (by decide) (by decide) (by decide), W3_kept m c main_arg1 (by decide) (by decide) (by decide),
   W3_kept m c main_arg2 (by decide) (by decide) (by decide), W3_kept m c main_arg3 (by decide) (by decide) (by decide),
   W3_kept m c main_arg4 (by decide) (by decide) (by decide), W3_kept m c main_arg5 (by decide) (by decide) (by decide),
   W3_kept m c main_arg6 (by decide) (by decide) (by decide)⟩

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_args m c).1,
     (h c _ (mem_uc main_arg1 (by decide))).trans (W3_args m c).2.1,
     (h c _ (mem_uc main_arg2 (by decide))).trans (W3_args m c).2.2.1,
     (h c _ (mem_uc main_arg3 (by decide))).trans (W3_args m c).2.2.2.1,
     (h c _ (mem_uc main_arg4 (by decide))).trans (W3_args m c).2.2.2.2.1,
     (h c _ (mem_uc main_arg5 (by decide))).trans (W3_args m c).2.2.2.2.2.1,
     (h c _ (mem_uc main_arg6 (by decide))).trans (W3_args m c).2.2.2.2.2.2⟩) (run_all m ρ)

end Cert.KernelIdeal.Hand

end
-- ==== Proof.PayloadMath.lean ====
/- The kernel bodies' arithmetic read at an index, at the extended reals.

   Gate/up body. For a row block x (1024 x 2048) and two weight blocks a, b (512 x 2048, each
   contracted along its SECOND axis), the stored value at (p, q) is
       g * logistic g * u,   g = ∑ j, x (p, j) * a (q, j),   u = ∑ j, x (p, j) * b (q, j):
   both products accumulate into zero, so each is the plain sum; the narrowing to the storage format
   and the casts to the same shape are identities on extended reals.

   Down body. The first store writes the zero array: 0 at every index. The second writes, at (p, q),
       acc (p, q) + ∑ k, h (p, k) * w (q, k)
   (h : 1024 x 512, w : 1024 x 512 contracted along its second axis, acc : 1024 x 1024).

   Two regroupings of sums over any additive commutative monoid. A sum over 5632 = 11 * 512 terms is
   the sum over 11 blocks of the sums over the 512 terms of a block (term kb * 512 + kk). The
   left-to-right accumulation  (0 + g 0) + g 1 + … + g n  is the sum of g over {0, …, n}. -/
import proofs.«110734_j13889924235944_1_alg».proof.Proof.Gen.KernelIdeal.Skeleton
import Idealize.ShloMosaic.Lib.Pipeline.Value
import Idealize.ShloMosaic.Lib.ValueIdx
import Idealize.ShloMosaic.PureOps.Ideal.Laws
import Mathlib.Algebra.BigOperators.Fin
import Mathlib.Algebra.BigOperators.Group.Finset.Basic
import Mathlib.Data.Fintype.BigOperators
import Mathlib.Logic.Equiv.Fin.Basic

noncomputable section

namespace Cert.KernelIdeal.PayMath

open Cert.KernelIdeal Cert.KernelIdeal.Gen Idealize.ShloMosaic Idealize.ShloMosaic.ValueIdx

/-! ## The gate/up product's operand indices, axis by axis -/

theorem lhs_gate_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs_gate_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhs_gate_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs_gate_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- A product of the gate/up body into zero, at (p, q): the sum over the shared second axis. -/
theorem gate_matmul_apply (x : FVec Ideal S1024x2048 .bf16) (a : FVec Ideal S512x2048 .bf16) (p : Fin 1024) (q : Fin 512) :
    matmul dot_S1024x2048_S512x2048_S1024x512_1_1_0_0_n_n none x a (constant (F := Ideal) S1024x512 .f32 0x00000000#32) (ix2 p q)
      = ∑ j : Fin 2048, x (ix2 p j) * a (ix2 q j) := by
  simp only [matmul]
  rw [Ideal.matmul_constant_zero_apply, ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q) ((contrEquiv1 dot_S1024x2048_S512x2048_S1024x512_1_1_0_0_n_n 2048 rfl rfl).symm k) = ix2 p k := funext fun c => Fin.ext (by
    match c with
    | ⟨0, _⟩ => exact lhs_gate_0 _ _
    | ⟨1, _⟩ => exact (lhs_gate_1 _ _).trans hk)
  have er : dot_S1024x2048_S512x2048_S1024x512_1_1_0_0_n_n.rhsIdx (ix2 p q) ((contrEquiv1 dot_S1024x2048_S512x2048_S1024x512_1_1_0_0_n_n 2048 rfl rfl).symm k) = ix2 q k := funext fun c => Fin.ext (by
    match c with
    | ⟨0, _⟩ => exact rhs_gate_0 _ _
    | ⟨1, _⟩ => exact (rhs_gate_1 _ _).trans hk)
  rw [el, er]

/-- The gate/up body's stored value at (p, q). -/
theorem gate_pay_apply (x : Vec Ideal S1024x2048 .bf16) (a b : Vec Ideal S512x2048 .bf16) (p : Fin 1024) (q : Fin 512) :
    k0_pay1 (F := Ideal) x a b (ix2 p q)
      = (∑ j : Fin 2048, x (ix2 p j) * a (ix2 q j)) * Ideal.logistic (∑ j : Fin 2048, x (ix2 p j) * a (ix2 q j))
          * (∑ j : Fin 2048, x (ix2 p j) * b (ix2 q j)) := by
  unfold k0_pay1
  simp only [shapeCast_self]
  show (matmul dot_S1024x2048_S512x2048_S1024x512_1_1_0_0_n_n none x a (constant (F := Ideal) S1024x512 .f32 0x00000000#32) (ix2 p q))
        * Ideal.logistic (matmul dot_S1024x2048_S512x2048_S1024x512_1_1_0_0_n_n none x a (constant (F := Ideal) S1024x512 .f32 0x00000000#32) (ix2 p q))
        * (matmul dot_S1024x2048_S512x2048_S1024x512_1_1_0_0_n_n none x b (constant (F := Ideal) S1024x512 .f32 0x00000000#32) (ix2 p q)) = _
  rw [gate_matmul_apply x a p q, gate_matmul_apply x b p q]

/-! ## The down body -/

/-- The down body's first store writes zero everywhere. -/
theorem zero_pay_apply (i : S1024x1024.Idx) : k1_pay1 (F := Ideal) i = 0 := by
  unfold k1_pay1
  simp only [shapeCast_self]
  show Ideal.ofBits .f32 0x00000000#32 = 0
  exact Ideal.ofBits_zero_f32

theorem lhs_down_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_down_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_down_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_down_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The down body's product into zero, at (p, q): the sum over the shared second axis. -/
theorem down_matmul_apply (h w : FVec Ideal S1024x512 .bf16) (p q : Fin 1024) :
    matmul dot_S1024x512_S1024x512_S1024x1024_1_1_0_0_n_n none h w (constant (F := Ideal) S1024x1024 .f32 0x00000000#32) (ix2 p q)
      = ∑ kk : Fin 512, h (ix2 p kk) * w (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun c => Fin.ext (by
    match c with
    | ⟨0, _⟩ => exact lhs_down_0 _ _
    | ⟨1, _⟩ => exact (lhs_down_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun c => Fin.ext (by
    match c with
    | ⟨0, _⟩ => exact rhs_down_0 _ _
    | ⟨1, _⟩ => exact (rhs_down_1 _ _).trans hk)
  rw [el, er]

/-- The down body's second store at (p, q): the accumulator there plus the block's product. -/
theorem acc_pay_apply (h w : Vec Ideal S1024x512 .bf16) (acc : Vec Ideal S1024x1024 .f32) (p q : Fin 1024) :
    k1_pay2 (F := Ideal) h w acc (ix2 p q) = acc (ix2 p q) + ∑ kk : Fin 512, h (ix2 p kk) * w (ix2 q kk) := by
  unfold k1_pay2
  simp only [shapeCast_self]
  show acc (ix2 p q) + matmul dot_S1024x512_S1024x512_S1024x1024_1_1_0_0_n_n none h w (constant (F := Ideal) S1024x1024 .f32 0x00000000#32) (ix2 p q) = _
  rw [down_matmul_apply h w p q]

/-! ## Regrouping sums -/

/-- A sum of 5632 = 11 * 512 terms, block by block. -/
theorem sum_blocks {M : Type*} [AddCommMonoid M] (f : Fin 5632 → M) :
    ∑ k : Fin 5632, f k = ∑ kb : Fin 11, ∑ kk : Fin 512, f ⟨kb.val * 512 + kk.val, by omega⟩ := by
  rw [← Fintype.sum_prod_type' (fun (kb : Fin 11) (kk : Fin 512) => f ⟨kb.val * 512 + kk.val, by omega⟩)]
  rw [← Equiv.sum_comp (finProdFinEquiv (m := 11) (n := 512)) f]
  refine Finset.sum_congr rfl fun x _ => congrArg f (Fin.ext ?_)
  show x.2.val + 512 * x.1.val = x.1.val * 512 + x.2.val
  omega

/-- The left-to-right accumulation from zero. -/
def run {M : Type*} [AddCommMonoid M] (g : ℕ → M) : ℕ → M
  | 0 => 0 + g 0
  | n + 1 => run g n + g (n + 1)

theorem fold_blocks {M : Type*} [AddCommMonoid M] (g : ℕ → M) (n : ℕ) :
    run g n = ∑ k ∈ Finset.range (n + 1), g k := by
  induction n with
  | zero => simp [run]
  | succ n ih => rw [run, ih, Finset.sum_range_succ _ (n + 1)]

end Cert.KernelIdeal.PayMath

end
-- ==== Proof.Spec.lean ====
/-
  The mathematics both programs compute, over the extended reals, as one function of the token matrix
  `x` and of the three weight matrices AFTER their block-wise rescaling (`D0`, `D1` of shape
  [5632, 2048], `D2` of shape [2048, 5632]; how a weight matrix is rescaled is the same host text in
  both programs and is never opened here):

      gate[r, k] = Σ_j x[r, j] · D0[k, j]          up[r, k] = Σ_j x[r, j] · D1[k, j]
      hid [r, k] = gate[r, k] · logistic(gate[r, k]) · up[r, k]
      out [r, d] = Σ_k hid[r, k] · D2[d, k]

  with `logistic g = 1 / (1 + e^(-g))` the extended reals' (`Ideal.logistic`). The last lemmas regroup
  the contraction over the 5632 hidden units into 11 consecutive runs of 512, summed run after run from
  zero, which is how a kernel that walks the hidden axis block by block accumulates it.
-/
import Idealize.ShloMosaic.PureOps.Ideal
import Idealize.ShloMosaic.Lib.ValueIdx

noncomputable section

open scoped BigOperators

namespace Cert.Spec

open Idealize.ShloMosaic Idealize.ShloMosaic.ValueIdx

/-- The token matrix's shape [8192, 2048] (also the result's). -/
abbrev ST : Shape := ⟨2, ![8192, 2048]⟩
/-- The gate and up weight matrices' shape [5632, 2048]. -/
abbrev SW : Shape := ⟨2, ![5632, 2048]⟩
/-- The down weight matrix's shape [2048, 5632]. -/
abbrev SV : Shape := ⟨2, ![2048, 5632]⟩
/-- The hidden activation's shape [8192, 5632]. -/
abbrev SH : Shape := ⟨2, ![8192, 5632]⟩

/-- Entry (r, k) of `x · Dᵀ`: row `r` of the tokens against row `k` of a weight matrix. -/
def proj (x : ST.Idx → EReal) (D : SW.Idx → EReal) (r : Fin 8192) (k : Fin 5632) : EReal :=
  ∑ j : Fin 2048, x (ix2 r j) * D (ix2 k j)

/-- The gated hidden activation `silu(gate) · up` at (r, k), with `silu g = g · logistic g`. -/
def hid (x : ST.Idx → EReal) (D0 D1 : SW.Idx → EReal) (r : Fin 8192) (k : Fin 5632) : EReal :=
  proj x D0 r k * Ideal.logistic (proj x D0 r k) * proj x D1 r k

/-- The hidden activation as an array. -/
def hidArr (x : ST.Idx → EReal) (D0 D1 : SW.Idx → EReal) : SH.Idx → EReal :=
  fun i => hid x D0 D1 (i 0) (i 1)

/-- Entry (r, d) of the result: the hidden row `r` against row `d` of the down weights. -/
def out (x : ST.Idx → EReal) (D0 D1 : SW.Idx → EReal) (D2 : SV.Idx → EReal) (r : Fin 8192) (d : Fin 2048) : EReal :=
  ∑ k : Fin 5632, hid x D0 D1 r k * D2 (ix2 d k)

/-- The result as an array. -/
def G (x : ST.Idx → EReal) (D0 D1 : SW.Idx → EReal) (D2 : SV.Idx → EReal) : ST.Idx → EReal :=
  fun i => out x D0 D1 D2 (i 0) (i 1)

/-- A hidden activation `H` contracted against the down weights: entry (r, d) is `Σ_k H[r, k] · D2[d, k]`. -/
def contract (H : SH.Idx → EReal) (D2 : SV.Idx → EReal) : ST.Idx → EReal :=
  fun i => ∑ k : Fin 5632, H (ix2 (i 0) k) * D2 (ix2 (i 1) k)

theorem contract_apply (H : SH.Idx → EReal) (D2 : SV.Idx → EReal) (r : Fin 8192) (d : Fin 2048) :
    contract H D2 (ix2 r d) = ∑ k : Fin 5632, H (ix2 r k) * D2 (ix2 d k) := rfl

/-- The result is the hidden activation contracted against the down weights. -/
theorem G_eq_contract (x : ST.Idx → EReal) (D0 D1 : SW.Idx → EReal) (D2 : SV.Idx → EReal) :
    G x D0 D1 D2 = contract (hidArr x D0 D1) D2 := rfl

theorem G_apply (x : ST.Idx → EReal) (D0 D1 : SW.Idx → EReal) (D2 : SV.Idx → EReal) (r : Fin 8192) (d : Fin 2048) :
    G x D0 D1 D2 (ix2 r d) = out x D0 D1 D2 r d := rfl

theorem hidArr_apply (x : ST.Idx → EReal) (D0 D1 : SW.Idx → EReal) (r : Fin 8192) (k : Fin 5632) :
    hidArr x D0 D1 (ix2 r k) = hid x D0 D1 r k := rfl

end Cert.Spec

end
-- ==== Proof.IGateVal.lean ====
/-
  The hidden activation the gate / up region leaves, as one array.

  The region's grid has 8 × 11 points; point t = 11·i + j reads rows [1024·i, 1024·(i+1)) of the token
  matrix x and rows [512·j, 512·(j+1)) of the two rescaled weight matrices D0, D1, and writes back the
  [1024, 512] tile (i, j) of the output array. Entry (p, q) of that tile is
      g · logistic g · u,   g = Σ_l x[1024·i + p, l] · D0[512·j + q, l],   u = Σ_l x[1024·i + p, l] · D1[512·j + q, l],
  which is `hid x D0 D1` at row 1024·i + p and hidden unit 512·j + q: every point writes its tile of the one
  array `hidArr x D0 D1`. The 88 tiles cover [8192, 5632] (entry (r, k) lies in the tile of point
  11·(r / 1024) + k / 512), so the array the region leaves is `hidArr x D0 D1`.
-/
import proofs.«110734_j13889924235944_1_alg».proof.Proof.IGateUp
import proofs.«110734_j13889924235944_1_alg».proof.Proof.PayloadMath
import proofs.«110734_j13889924235944_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The index maps over the grid -/

theorem hz : (![0, 0] : Fin 2 → Nat) = fun _ => 0 := funext fun a => by fin_cases a <;> rfl

/-- Point `t` is (i, j) = (t / 11, t % 11): the token window sits at block (i, 0), the two weight windows at
    (j, 0), the output window at (i, j). -/
theorem gidx : ∀ t : Fin cfg0.N,
    win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val % 11 ∧ win0_2.index t (1 : Fin 2) = 0
    ∧ win0_3.index t (0 : Fin 2) = t.val / 11 ∧ win0_3.index t (1 : Fin 2) = t.val % 11 :=
  (by decide +kernel : ∀ t : Fin grid0.N, _)

/-! ## A tile of the hidden activation -/

/-- When `x` is rows [1024·i, 1024·(i+1)) of `X` and `a`, `b` are rows [512·j, 512·(j+1)) of `A`, `B`, the
    payload at (p, q) is the hidden activation of `X A B` at (1024·i + p, 512·j + q). -/
theorem tile_hid (X : Cert.Spec.ST.Idx → EReal) (A B : Cert.Spec.SW.Idx → EReal)
    (x : Vec Ideal S1024x2048 .bf16) (a b : Vec Ideal S512x2048 .bf16) (i j : ℕ) (hi : i < 8) (hj : j < 11)
    (hx : ∀ (p : Fin 1024) (l : Fin 2048), x (ix2 p l) = X (ix2 ⟨i * 1024 + p.val, by omega⟩ l))
    (ha : ∀ (q : Fin 512) (l : Fin 2048), a (ix2 q l) = A (ix2 ⟨j * 512 + q.val, by omega⟩ l))
    (hb : ∀ (q : Fin 512) (l : Fin 2048), b (ix2 q l) = B (ix2 ⟨j * 512 + q.val, by omega⟩ l))
    (p : Fin 1024) (q : Fin 512) :
    k0_pay1 (F := Ideal) x a b (ix2 p q)
      = Cert.Spec.hid X A B ⟨i * 1024 + p.val, by omega⟩ ⟨j * 512 + q.val, by omega⟩ := by
  rw [PayMath.gate_pay_apply]
  unfold Cert.Spec.hid Cert.Spec.proj
  simp only [hx, ha, hb]

/-! ## The blocks read, where the rectangles say -/

/-- The grid has 88 points. -/
theorem glt (t : Fin cfg0.N) : t.val < 88 := lt_of_lt_of_eq t.isLt N_0

/-- The token block at point `t` is rows [1024·(t / 11), …) of the token matrix. -/
theorem gblk0_apply (c : Dev nD) (t : Fin cfg0.N) (p : Fin 1024) (l : Fin 2048) :
    gblk V c 0 t (ix2 p l)
      = V c main_v18 (ix2 (⟨t.val / 11 * 1024 + p.val, by have := glt t; omega⟩ : Fin 8192) l) := by
  obtain ⟨e0, e1, -⟩ := gidx t
  show V c main_v18 (((cfg0.win 0).blk t).view.emb (ix2 p l)) = _
  refine congrArg _ (funext fun a => Fin.ext ?_)
  match a with
  | ⟨0, _⟩ => show win0_0.index t (0 : Fin 2) * 1024 + 1 * p.val = t.val / 11 * 1024 + p.val; omega
  | ⟨1, _⟩ => show win0_0.index t (1 : Fin 2) * 2048 + 1 * l.val = l.val; omega

/-- The gate-weight block at point `t` is rows [512·(t % 11), …) of the rescaled gate weights. -/
theorem gblk1_apply (c : Dev nD) (t : Fin cfg0.N) (q : Fin 512) (l : Fin 2048) :
    gblk V c 1 t (ix2 q l)
      = V c main_v5 (ix2 (⟨t.val % 11 * 512 + q.val, by omega⟩ : Fin 5632) l) := by
  obtain ⟨-, -, e0, e1, -⟩ := gidx t
  show V c main_v5 (((cfg0.win 1).blk t).view.emb (ix2 q l)) = _
  refine congrArg _ (funext fun a => Fin.ext ?_)
  match a with
  | ⟨0, _⟩ => show win0_1.index t (0 : Fin 2) * 512 + 1 * q.val = t.val % 11 * 512 + q.val; omega
  | ⟨1, _⟩ => show win0_1.index t (1 : Fin 2) * 2048 + 1 * l.val = l.val; omega

/-- The up-weight block at point `t` is rows [512·(t % 11), …) of the rescaled up weights. -/
theorem gblk2_apply (c : Dev nD) (t : Fin cfg0.N) (q : Fin 512) (l : Fin 2048) :
    gblk V c 2 t (ix2 q l)
      = V c main_v11 (ix2 (⟨t.val % 11 * 512 + q.val, by omega⟩ : Fin 5632) l) := by
  obtain ⟨-, -, -, -, e0, e1, -⟩ := gidx t
  show V c main_v11 (((cfg0.win 2).blk t).view.emb (ix2 q l)) = _
  refine congrArg _ (funext fun a => Fin.ext ?_)
  match a with
  | ⟨0, _⟩ => show win0_2.index t (0 : Fin 2) * 512 + 1 * q.val = t.val % 11 * 512 + q.val; omega
  | ⟨1, _⟩ => show win0_2.index t (1 : Fin 2) * 2048 + 1 * l.val = l.val; omega

/-- Entry (p, q) of the output tile at point `t` sits at (1024·(t / 11) + p, 512·(t % 11) + q) of the array. -/
theorem gemb3 (t : Fin cfg0.N) (p : Fin 1024) (q : Fin 512) :
    ((cfg0.win 3).blk t).view.emb (ix2 p q)
      = ix2 (⟨t.val / 11 * 1024 + p.val, by have := glt t; omega⟩ : Fin 8192)
          (⟨t.val % 11 * 512 + q.val, by omega⟩ : Fin 5632) := by
  obtain ⟨-, -, -, -, -, -, e0, e1⟩ := gidx t
  refine funext fun a => Fin.ext ?_
  match a with
  | ⟨0, _⟩ => show win0_3.index t (0 : Fin 2) * 1024 + 1 * p.val = t.val / 11 * 1024 + p.val; omega
  | ⟨1, _⟩ => show win0_3.index t (1 : Fin 2) * 512 + 1 * q.val = t.val % 11 * 512 + q.val; omega

/-! ## What a point writes back -/

/-- Entry `y` of the tile the body leaves at point `t` is the hidden activation at the entry's place in the array. -/
theorem gtile_apply (c : Dev nD) (t : Fin cfg0.N) (y : S1024x512.Idx) :
    k0_pay1 (F := Ideal) (gblk V c 0 t) (gblk V c 1 t) (gblk V c 2 t) y
      = Cert.Spec.hidArr (V c main_v18) (V c main_v5) (V c main_v11) (((cfg0.win 3).blk t).view.emb y) := by
  obtain ⟨p, q, rfl⟩ : ∃ (p : Fin 1024) (q : Fin 512), y = ix2 p q := ⟨y 0, y 1, eq_ix2 y⟩
  rw [gemb3, Cert.Spec.hidArr_apply]
  exact tile_hid (V c main_v18) (V c main_v5) (V c main_v11) (gblk V c 0 t) (gblk V c 1 t) (gblk V c 2 t)
    (t.val / 11) (t.val % 11) (by have := glt t; omega) (by omega)
    (gblk0_apply V c t) (gblk1_apply V c t) (gblk2_apply V c t) p q

/-- Point `t` writes back its tile of the hidden activation of the arrays as the region finds them. -/
theorem gflushed_eq (c : Dev nD) (t : Fin cfg0.N) :
    (gdat (F := Ideal) V c).flushed 3 t
      = ((cfg0.win 3).blk t).view.read (Elt Ideal) (Cert.Spec.hidArr (V c main_v18) (V c main_v5) (V c main_v11)) := by
  show (cfg0.win 3).cut (cfg0.grid.coords t) ((gdat (F := Ideal) V c).after 3 t) = _
  rw [gafter_3]
  unfold gout
  rw [View.canon_unit_zero hz]
  simp only [View.ld_unit_zero (S := S1024x2048) hz, View.ld_unit_zero (S := S512x2048) hz]
  funext y
  exact gtile_apply V c t y

/-! ## The tiles cover the array -/

/-- An entry of the array is in point `t`'s tile iff each coordinate is in the tile's range on its axis. -/
theorem gmem_blk (t : Fin cfg0.N) (i : S8192x5632.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v19).slice (win0_3.rect t)).set ↔ _
  rw [View.set_slice_whole, Rect.mem_set_unit]
  exact Iff.rfl

/-- Entry (r, k) lies in the tile of point 11·(r / 1024) + k / 512. -/
theorem gcovered (i : S8192x5632.Idx) :
    ∃ t : Fin cfg0.N, (cfg0.win 3).flush t = true ∧ i ∈ ((cfg0.win 3).blk t).view.set := by
  have hi0 : (i 0).val < 8192 := (i 0).isLt
  have hi1 : (i 1).val < 5632 := (i 1).isLt
  let t : Fin cfg0.N := ⟨(i 0).val / 1024 * 11 + (i 1).val / 512, by rw [show cfg0.N = 88 from N_0]; omega⟩
  have ht : t.val = (i 0).val / 1024 * 11 + (i 1).val / 512 := rfl
  obtain ⟨-, -, -, -, -, -, e0, e1⟩ := gidx t
  refine ⟨t, flush0_3 t, ?_⟩
  rw [gmem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The array the region leaves -/

/-- After the region, the output array is the hidden activation of the token matrix and the two rescaled
    weight matrices as the region finds them. -/
theorem gate_array (c : Dev nD) :
    ((gdat (F := Ideal) V c).arrAt 3 cfg0.N : S8192x5632.Idx → EReal)
      = Cert.Spec.hidArr (V c main_v18) (V c main_v5) (V c main_v11) :=
  (gdat (F := Ideal) V c).arrAt_eq_of_cover 3 _ (fun t _ => gflushed_eq V c t) gcovered

end Cert.KernelIdeal.Hand

end
-- ==== Proof.IDownVal.lean ====
/-
  The result array the down-projection region leaves.

  The grid has 8 × 2 × 11 points t = (i, j, k) = (t / 22, (t / 11) % 2, t % 11), k innermost. Point t reads the
  [1024, 512] tile (i, k) of the hidden activation H [8192, 5632] and the tile (j, k) of the down weights D
  [2048, 5632]; the output tile (i, j) of the result [8192, 2048] is written back at the points with k = 10.

  What each case of the body leaves in the scratch, as one function of what it reads: at k = 0,
  zero plus the tiles' product; at k > 0, what the point before left plus the tiles' product; at k = 10 the
  output tile's buffer is left equal to the scratch. The tiles' product at (p, q) is
      Σ_kk H[1024 i + p, 512 k + kk] · D[1024 j + q, 512 k + kk],
  block k of the contraction of row 1024 i + p of H against row 1024 j + q of D. So, by induction on the point,
  after point (i, j, k) the scratch at (p, q) is the sum of blocks 0 … k of that contraction; at k = 10 it is the
  sum of all 11 blocks of 512 terms, which is the whole contraction Σ_{k < 5632} H[r, k] · D[d, k]. Every index
  (r, d) of the result lies in the tile of the point (r / 1024, d / 1024, 10), so the array ends holding
      out[r, d] = Σ_k H[r, k] · D[d, k].
-/
import proofs.«110734_j13889924235944_1_alg».proof.Proof.IDownBody
import proofs.«110734_j13889924235944_1_alg».proof.Proof.PayloadMath
import proofs.«110734_j13889924235944_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces
variable {F : FTy → Type} [FloatOps F]

theorem dhz : (![0, 0] : Fin 2 → Nat) = fun _ => 0 := funext fun a => by fin_cases a <;> rfl

theorem dsoutA_eq (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : kFirst i) (hc1 : ¬kLast i)
    (x0 x1 : Vec F S1024x512 .bf16) :
    dsoutA c i arg3 harg3 arg4 harg4 arg5 harg5 arg6 harg6 hc0 hc1 x0 x1 = k1_pay2 x0 x1 (k1_pay1 (F := F)) := by
  unfold dsoutA
  rw [View.read_writes_eq_canon _ _ _ (dcoverA c i arg3 harg3 arg4 harg4 arg5 harg5 arg6 harg6 hc0 hc1 x0 x1)]
  unfold drunA
  dsimp only
  sl_unfold_words
  rw [View.canon_cons_unit_zero (S := S1024x1024) dhz]
  simp only [View.readAt_eq_ld, harg3.read_unread, harg4.read_unread, View.ld_unit_zero (S := S1024x512) dhz, View.readCov_unit_zero (S := S1024x1024) _ dhz]

theorem dsoutB_eq (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : ¬kLast i)
    (x0 x1 : Vec F S1024x512 .bf16) (xs : Vec F S1024x1024 .f32) :
    dsoutB c i arg3 harg3 arg4 harg4 arg5 harg5 arg6 harg6 hc0 hc1 x0 x1 xs = k1_pay2 x0 x1 xs := by
  unfold dsoutB
  rw [View.read_writes_eq_canon _ _ _ (dcoverB c i arg3 harg3 arg4 harg4 arg5 harg5 arg6 harg6 hc0 hc1 x0 x1 xs)]
  unfold drunB
  dsimp only
  sl_unfold_words
  rw [View.canon_unit_zero dhz]
  simp only [View.readAt_eq_ld, harg3.read_unread, harg4.read_unread, harg6.read_unread, View.ld_unit_zero (S := S1024x512) dhz, View.ld_unit_zero (S := S1024x1024) dhz]

theorem dsoutC_eq (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) :
    dsoutC c i arg3 harg3 arg4 harg4 arg5 harg5 arg6 harg6 hc0 hc1 x0 x1 xs = k1_pay2 x0 x1 xs := by
  unfold dsoutC
  rw [View.read_writes_eq_canon _ _ _ (dcoverC c i arg3 harg3 arg4 harg4 arg5 harg5 arg6 harg6 hc0 hc1 x0 x1 xs)]
  unfold drunC
  dsimp only
  sl_unfold_words
  rw [View.canon_unit_zero dhz]
  simp only [View.readAt_eq_ld, harg3.read_unread, harg4.read_unread, harg6.read_unread, View.ld_unit_zero (S := S1024x512) dhz, View.ld_unit_zero (S := S1024x1024) dhz]

theorem doutC_eq (c : Dev nD) (i : grid1.Coords) (arg3 : Memref sig .tc .vmem S1024x512 .bf16) (harg3 : arg3.IsWhole)
    (arg4 : Memref sig .tc .vmem S1024x512 .bf16) (harg4 : arg4.IsWhole) (arg5 : Memref sig .tc .vmem S1024x1024 .f32) (harg5 : arg5.IsWhole)
    (arg6 : Memref sig .tc .vmem S1024x1024 .f32) (harg6 : arg6.IsWhole) (hc0 : ¬kFirst i) (hc1 : kLast i)
    (x0 x1 : Vec F S1024x512 .bf16) (xs : Vec F S1024x1024 .f32) :
    doutC c i arg3 harg3 arg4 harg4 arg5 harg5 arg6 harg6 hc0 hc1 x0 x1 xs = k1_pay2 x0 x1 xs := by
  unfold doutC
  rw [View.read_writes_eq_canon _ _ _ (dcoverO c i arg3 harg3 arg4 harg4 arg5 harg5 arg6 harg6 hc0 hc1 x0 x1 xs)]
  unfold drunC
  dsimp only
  sl_unfold_words
  rw [View.canon_unit_zero dhz]
  simp only [View.readAt_eq_ld, harg3.read_unread, harg4.read_unread, harg6.read_unread, View.ld_unit_zero (S := S1024x512) dhz, View.ld_unit_zero (S := S1024x1024) dhz, View.readCov_unit_zero (S := S1024x1024) _ dhz]

end Pieces

/-! ## At the extended reals -/

section AtIdeal

variable (V : (c : Dev nD) → (b : Ref sig .tc) → Buf (Elt Ideal) ((c : Thread nD τ).loc b))

/-- The hidden activation and the down weights, as the region finds them; the tiles a point reads. -/
abbrev harr (c : Dev nD) : Vec Ideal S8192x5632 .bf16 := V c main_v19
abbrev warr (c : Dev nD) : Vec Ideal S2048x5632 .bf16 := V c main_v17
abbrev hblk (c : Dev nD) (t : Fin cfg1.N) : Vec Ideal S1024x512 .bf16 := dblk V c 0 t
abbrev wblk (c : Dev nD) (t : Fin cfg1.N) : Vec Ideal S1024x512 .bf16 := dblk V c 1 t

/-- The block indices of the three windows at point t = (i, j, k): (i, k), (j, k), (i, j). -/
theorem didx_facts : ∀ t : Fin cfg1.N, win1_0.index t (0 : Fin 2) = t.val / 22 ∧ win1_0.index t (1 : Fin 2) = t.val % 11
    ∧ win1_1.index t (0 : Fin 2) = (t.val / 11) % 2 ∧ win1_1.index t (1 : Fin 2) = t.val % 11
    ∧ win1_2.index t (0 : Fin 2) = t.val / 22 ∧ win1_2.index t (1 : Fin 2) = (t.val / 11) % 2 :=
  (by decide +kernel : ∀ t : Fin grid1.N, _)

/-- The hidden tile at point t, at (p, kk), is the hidden activation at (1024 i + p, 512 k + kk). -/
theorem hblk_apply (c : Dev nD) (t : Fin cfg1.N) (p : Fin 1024) (kk : Fin 512) (r : Fin 8192) (k : Fin 5632)
    (hr : r.val = 1024 * (t.val / 22) + p.val) (hk : k.val = 512 * (t.val % 11) + kk.val) :
    hblk V c t (ix2 p kk) = harr V c (ix2 r k) := by
  obtain ⟨e0, e1, -, -, -, -⟩ := didx_facts t
  show V c main_v19 (((cfg1.win 0).blk t).view.emb (ix2 p kk)) = V c main_v19 (ix2 r k)
  refine congrArg (V c main_v19) (funext fun a => Fin.ext ?_)
  match a with
  | ⟨0, _⟩ => show win1_0.index t (0 : Fin 2) * 1024 + 1 * p.val = r.val; rw [e0, hr]; omega
  | ⟨1, _⟩ => show win1_0.index t (1 : Fin 2) * 512 + 1 * kk.val = k.val; rw [e1, hk]; omega

/-- The weight tile at point t, at (q, kk), is the down weights at (1024 j + q, 512 k + kk). -/
theorem wblk_apply (c : Dev nD) (t : Fin cfg1.N) (q : Fin 1024) (kk : Fin 512) (d : Fin 2048) (k : Fin 5632)
    (hd : d.val = 1024 * ((t.val / 11) % 2) + q.val) (hk : k.val = 512 * (t.val % 11) + kk.val) :
    wblk V c t (ix2 q kk) = warr V c (ix2 d k) := by
  obtain ⟨-, -, e0, e1, -, -⟩ := didx_facts t
  show V c main_v17 (((cfg1.win 1).blk t).view.emb (ix2 q kk)) = V c main_v17 (ix2 d k)
  refine congrArg (V c main_v17) (funext fun a => Fin.ext ?_)
  match a with
  | ⟨0, _⟩ => show win1_1.index t (0 : Fin 2) * 1024 + 1 * q.val = d.val; rw [e0, hd]; omega
  | ⟨1, _⟩ => show win1_1.index t (1 : Fin 2) * 512 + 1 * kk.val = k.val; rw [e1, hk]; omega

/-- Block kb of the contraction of row r of H against row d of D: the 512 terms kb * 512 + kk (zero past the 11 blocks). -/
def bterm (H : S8192x5632.Idx → EReal) (D : S2048x5632.Idx → EReal) (r : Fin 8192) (d : Fin 2048) (kb : ℕ) : EReal :=
  if h : kb < 11 then ∑ kk : Fin 512, H (ix2 r ⟨kb * 512 + kk.val, by omega⟩) * D (ix2 d ⟨kb * 512 + kk.val, by omega⟩) else 0

/-- The product of the two tiles read at point t, at (p, q), is block k of the contraction of the rows they sit in. -/
theorem blkdot_eq (c : Dev nD) (t : Fin cfg1.N) (p q : Fin 1024) (r : Fin 8192) (d : Fin 2048)
    (hr : r.val = 1024 * (t.val / 22) + p.val) (hd : d.val = 1024 * ((t.val / 11) % 2) + q.val) :
    ∑ kk : Fin 512, hblk V c t (ix2 p kk) * wblk V c t (ix2 q kk) = bterm (harr V c) (warr V c) r d (t.val % 11) := by
  have h11 : t.val % 11 < 11 := Nat.mod_lt _ (by decide)
  unfold bterm
  rw [dif_pos h11]
  refine Finset.sum_congr rfl fun kk _ => ?_
  rw [hblk_apply V c t p kk r ⟨t.val % 11 * 512 + kk.val, by omega⟩ hr (by show t.val % 11 * 512 + kk.val = _; omega),
    wblk_apply V c t q kk d ⟨t.val % 11 * 512 + kk.val, by omega⟩ hd (by show t.val % 11 * 512 + kk.val = _; omega)]

/-- At a point with k = 0 the scratch is left at block 0 of the contraction. -/
theorem dacc_snd_first (c : Dev nD) (t : Fin cfg1.N) (h0 : t.val % 11 = 0) (p q : Fin 1024) (r : Fin 8192) (d : Fin 2048)
    (hr : r.val = 1024 * (t.val / 22) + p.val) (hd : d.val = 1024 * ((t.val / 11) % 2) + q.val) :
    (dacc V c t.val t.isLt).2 (ix2 p q) = bterm (harr V c) (warr V c) r d (t.val % 11) := by
  have h1 : ¬t.val % 11 = 10 := by omega
  rw [dacc_A V c t h0 h1]
  dsimp only
  refine (congrFun (dsoutA_eq (F := Ideal) c (grid1.coords t) (dm0 t) (dh0 t) (dm1 t) (dh1 t) (dm2 t) (dh2 t) dsc (Memref.isWhole_whole _) ((kFirst_iff t).mpr h0) (fun h => h1 ((kLast_iff t).mp h)) (hblk V c t) (wblk V c t)) (ix2 p q)).trans ?_
  rw [PayMath.acc_pay_apply, PayMath.zero_pay_apply, zero_add]
  exact blkdot_eq V c t p q r d hr hd

/-- At a point with k > 0 block k of the contraction is added to what the point before left. -/
theorem dacc_snd_next (c : Dev nD) (t : Fin cfg1.N) (h0 : ¬t.val % 11 = 0) (p q : Fin 1024) (r : Fin 8192) (d : Fin 2048)
    (hr : r.val = 1024 * (t.val / 22) + p.val) (hd : d.val = 1024 * ((t.val / 11) % 2) + q.val) :
    (dacc V c t.val t.isLt).2 (ix2 p q)
      = (dacc V c (t.val - 1) (Nat.lt_of_le_of_lt (Nat.sub_le _ _) t.isLt)).2 (ix2 p q) + bterm (harr V c) (warr V c) r d (t.val % 11) := by
  by_cases h1 : t.val % 11 = 10
  · rw [dacc_C V c t h0 h1]
    dsimp only
    refine (congrFun (dsoutC_eq (F := Ideal) c (grid1.coords t) (dm0 t) (dh0 t) (dm1 t) (dh1 t) (dm2 t) (dh2 t) dsc (Memref.isWhole_whole _) (fun h => h0 ((kFirst_iff t).mp h)) ((kLast_iff t).mpr h1) (hblk V c t) (wblk V c t) (dacc V c (t.val - 1) (Nat.lt_of_le_of_lt (Nat.sub_le _ _) t.isLt)).2) (ix2 p q)).trans ?_
    rw [PayMath.acc_pay_apply]
    exact congrArg _ (blkdot_eq V c t p q r d hr hd)
  · rw [dacc_B V c t h0 h1]
    dsimp only
    refine (congrFun (dsoutB_eq (F := Ideal) c (grid1.coords t) (dm0 t) (dh0 t) (dm1 t) (dh1 t) (dm2 t) (dh2 t) dsc (Memref.isWhole_whole _) (fun h => h0 ((kFirst_iff t).mp h)) (fun h => h1 ((kLast_iff t).mp h)) (hblk V c t) (wblk V c t) (dacc V c (t.val - 1) (Nat.lt_of_le_of_lt (Nat.sub_le _ _) t.isLt)).2) (ix2 p q)).trans ?_
    rw [PayMath.acc_pay_apply]
    exact congrArg _ (blkdot_eq V c t p q r d hr hd)

/-- At a point with k = 10 the output tile's buffer is left at the scratch. -/
theorem dacc_fst_last (c : Dev nD) (t : Fin cfg1.N) (h1 : t.val % 11 = 10) :
    (dacc V c t.val t.isLt).1 = (dacc V c t.val t.isLt).2 := by
  have h0 : ¬t.val % 11 = 0 := by omega
  rw [dacc_C V c t h0 h1]
  dsimp only
  rw [doutC_eq, dsoutC_eq]

/-- THE INVARIANT: after point t = (i, j, k) the scratch at (p, q) is blocks 0 … k of the contraction of row
    1024 i + p of the hidden activation against row 1024 j + q of the down weights. -/
theorem dacc_snd_eq (c : Dev nD) : ∀ (n : ℕ) (hn : n < cfg1.N) (p q : Fin 1024) (r : Fin 8192) (d : Fin 2048),
    r.val = 1024 * (n / 22) + p.val → d.val = 1024 * ((n / 11) % 2) + q.val →
    (dacc V c n hn).2 (ix2 p q) = ∑ k' ∈ Finset.range (n % 11 + 1), bterm (harr V c) (warr V c) r d k'
  | 0, hn, p, q, r, d, hr, hd => by
    refine (dacc_snd_first V c ⟨0, hn⟩ rfl p q r d hr hd).trans ?_
    show bterm _ _ r d (0 % 11) = _
    rw [Nat.zero_mod, Finset.sum_range_one]
  | n + 1, hn, p, q, r, d, hr, hd => by
    by_cases h0 : (n + 1) % 11 = 0
    · refine (dacc_snd_first V c ⟨n + 1, hn⟩ h0 p q r d hr hd).trans ?_
      show bterm _ _ r d ((n + 1) % 11) = _
      rw [h0, Finset.sum_range_one]
    · refine (dacc_snd_next V c ⟨n + 1, hn⟩ h0 p q r d hr hd).trans ?_
      show (dacc V c n _).2 (ix2 p q) + bterm _ _ r d ((n + 1) % 11) = _
      rw [dacc_snd_eq c n _ p q r d (by omega) (by omega)]
      have e : (n + 1) % 11 = n % 11 + 1 := by omega
      rw [e, Finset.sum_range_succ _ (n % 11 + 1)]

/-- What a point with k = 10 writes back is its tile of the contraction. -/
theorem dflushed_eq (c : Dev nD) (t : Fin cfg1.N) (hf : (cfg1.win 2).flush t = true) :
    (ddat (F := Ideal) V c).flushed 2 t
      = ((cfg1.win 2).blk t).view.read (Elt Ideal) (Cert.Spec.contract (harr V c) (warr V c)) := by
  have h10 : t.val % 11 = 10 := (flush1_2 t).mp hf
  obtain ⟨-, -, -, -, e0, e1⟩ := didx_facts t
  show (cfg1.win 2).cut (cfg1.grid.coords t) ((ddat V c).after 2 t) = _
  rw [dafter_2, dacc_fst_last V c t h10]
  funext j
  obtain ⟨p, q, rfl⟩ : ∃ (p q : Fin 1024), j = ix2 p q := ⟨j 0, j 1, eq_ix2 j⟩
  have hN : cfg1.N = 176 := N_1
  have ht : t.val < 176 := hN ▸ t.isLt
  have hr : 1024 * (t.val / 22) + p.val < 8192 := by omega
  have hd : 1024 * ((t.val / 11) % 2) + q.val < 2048 := by omega
  show (dacc V c t.val t.isLt).2 (ix2 p q) = Cert.Spec.contract (harr V c) (warr V c) (((cfg1.win 2).blk t).view.emb (ix2 p q))
  have ei : ((cfg1.win 2).blk t).view.emb (ix2 p q)
      = ix2 (⟨1024 * (t.val / 22) + p.val, hr⟩ : Fin 8192) (⟨1024 * ((t.val / 11) % 2) + q.val, hd⟩ : Fin 2048) :=
    funext fun a => Fin.ext (by
      match a with
      | ⟨0, _⟩ => show win1_2.index t (0 : Fin 2) * 1024 + 1 * p.val = 1024 * (t.val / 22) + p.val; rw [e0]; omega
      | ⟨1, _⟩ => show win1_2.index t (1 : Fin 2) * 1024 + 1 * q.val = 1024 * ((t.val / 11) % 2) + q.val; rw [e1]; omega)
  rw [ei, Cert.Spec.contract_apply, PayMath.sum_blocks, dacc_snd_eq V c t.val t.isLt p q ⟨1024 * (t.val / 22) + p.val, hr⟩ ⟨1024 * ((t.val / 11) % 2) + q.val, hd⟩ rfl rfl, h10, Finset.sum_range]
  refine Finset.sum_congr rfl fun kb _ => ?_
  unfold bterm
  rw [dif_pos kb.isLt]

/-- Every index of the result is in the tile of a point with k = 10: row block i = r / 1024, column block j = d / 1024. -/
theorem dcover (i : S8192x2048.Idx) :
    ∃ t : Fin cfg1.N, (cfg1.win 2).flush t = true ∧ i ∈ ((cfg1.win 2).blk t).view.set := by
  have hN : cfg1.N = 176 := N_1
  have hi0 : (i 0).val < 8192 := (i 0).isLt
  have hi1 : (i 1).val < 2048 := (i 1).isLt
  have hlt : (i 0).val / 1024 * 22 + (i 1).val / 1024 * 11 + 10 < cfg1.N := hN ▸ (by omega)
  obtain ⟨t, tv⟩ : ∃ t : Fin cfg1.N, t.val = (i 0).val / 1024 * 22 + (i 1).val / 1024 * 11 + 10 := ⟨⟨_, hlt⟩, rfl⟩
  obtain ⟨-, -, -, -, e0, e1⟩ := didx_facts t
  refine ⟨t, (flush1_2 t).mpr (by omega), ?_⟩
  show i ∈ ((View.whole main_v20).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; rw [e0, tv]; omega
  | ⟨1, _⟩ => show win1_2.index t (1 : Fin 2) * 1024 ≤ (i 1).val ∧ (i 1).val < win1_2.index t (1 : Fin 2) * 1024 + 1024; rw [e1, tv]; omega

/-- THE RESULT ARRAY after the region: the hidden activation contracted against the down weights. -/
theorem down_array (c : Dev nD) :
    ((ddat (F := Ideal) V c).arrAt 2 cfg1.N : S8192x2048.Idx → EReal) = Cert.Spec.contract (V c main_v19) (V c main_v17) :=
  (ddat V c).arrAt_eq_of_cover 2 _ (fun t hf => dflushed_eq V c t hf) dcover

end AtIdeal

end Cert.KernelIdeal.Hand

end
-- ==== Proof.RefRead.lean ====
/-
  The reference program's run and its stages read at an index: the generated run of the host
  program and its read-at-an-index lemmas, gathered under one import for the modules that
  compare the reference with the specification.
-/
import proofs.«110734_j13889924235944_1_alg».proof.Proof.Gen.ReferenceIdeal.Run
import proofs.«110734_j13889924235944_1_alg».proof.Proof.Gen.ReferenceIdeal.Read
-- ==== Proof.IHostVals.lean ====
/-
  What the program's leading host operations leave in the buffers the two kernel regions read.

  Both programs apply the same rescaling text to the same arguments: a weight matrix is reshaped into
  [groups, 128, groups', 128] blocks, its per-block scale is broadcast over the two block axes, the two
  are multiplied elementwise and the product is reshaped back. The kernel program then rounds the result
  to bf16 (and likewise the token matrix); on the extended reals every format holds the same values and a
  change of format is the identity. So after the host stretch the three rescaled-weight buffers hold
  exactly the reference's rescaled weights, and the converted token buffer holds the token argument.
-/
import proofs.«110734_j13889924235944_1_alg».proof.Proof.Gen.KernelIdeal.Regions
import proofs.«110734_j13889924235944_1_alg».proof.Proof.RefRead
import Idealize.ShloMosaic.Lib.StableHlo.Run
import Idealize.ShloMosaic.Lib.ValueIdx

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The converted token matrix is the token argument: rounding is the identity on the extended reals. -/
theorem host_v18 (c : Dev nD) :
    (V1 m c (Proc.devRef .tc main_v18) : S8192x2048.Idx → EReal) = m ((c : Thread nD τ).loc main_arg0) := by
  show StableHlo.after hostOps0 (fun b => m (c, b)) (Proc.devRef .tc main_v18) = _
  after_results
  rfl

/-- The first rescaled weight matrix is the reference's: the same reshape, broadcasts, product and reshape
    of the same two arguments, then a rounding that changes nothing. -/
theorem host_v5 (c : Dev nD) :
    (V1 m c (Proc.devRef .tc main_v5) : S5632x2048.Idx → EReal)
      = Cert.ReferenceIdeal.Read.val_main_v4 (m ((c : Thread nD τ).loc main_arg1)) (m ((c : Thread nD τ).loc main_arg2)) := by
  show StableHlo.after hostOps0 (fun b => m (c, b)) (Proc.devRef .tc main_v5) = _
  after_results
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0
  rfl

/-- The second rescaled weight matrix is the reference's. -/
theorem host_v11 (c : Dev nD) :
    (V1 m c (Proc.devRef .tc main_v11) : S5632x2048.Idx → EReal)
      = Cert.ReferenceIdeal.Read.val_main_v12 (m ((c : Thread nD τ).loc main_arg3)) (m ((c : Thread nD τ).loc main_arg4)) := by
  show StableHlo.after hostOps0 (fun b => m (c, b)) (Proc.devRef .tc main_v11) = _
  after_results
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8
  rfl

/-- The third rescaled weight matrix (of the transposed shape) is the reference's. -/
theorem host_v17 (c : Dev nD) :
    (V1 m c (Proc.devRef .tc main_v17) : S2048x5632.Idx → EReal)
      = Cert.ReferenceIdeal.Read.val_main_v19 (m ((c : Thread nD τ).loc main_arg5)) (m ((c : Thread nD τ).loc main_arg6)) := by
  show StableHlo.after hostOps0 (fun b => m (c, b)) (Proc.devRef .tc main_v17) = _
  after_results
  unfold Cert.ReferenceIdeal.Read.val_main_v19 Cert.ReferenceIdeal.Read.val_main_v18 Cert.ReferenceIdeal.Read.val_main_v17
    Cert.ReferenceIdeal.Read.val_main_v16 Cert.ReferenceIdeal.Read.val_main_v15
  rfl

end Cert.KernelIdeal.HostVals

end
-- ==== Proof.IValue.lean ====
/-
  What the idealized kernel program's result buffer holds after the run, as one function of the argument
  arrays over the extended reals. The run ends with every buffer at the boundary fold's last contents;
  there the result is the second region's output array — the hidden activation contracted, block of 512
  by block of 512, against the rescaled down weights —, the hidden activation is the first region's output
  array — `silu(gate) · up` tile by tile —, and the arrays those regions read are what the host stretch
  left: the tokens and the three rescaled weight matrices, rounded to bf16, which on the extended reals
  changes nothing. Together: `Spec.G` of the tokens and the three rescaled weights.
-/
import proofs.«110734_j13889924235944_1_alg».proof.Proof.IRun
import proofs.«110734_j13889924235944_1_alg».proof.Proof.IGateVal
import proofs.«110734_j13889924235944_1_alg».proof.Proof.IDownVal
import proofs.«110734_j13889924235944_1_alg».proof.Proof.IHostVals
import proofs.«110734_j13889924235944_1_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The specification's value at the launch memory's arguments: the three weight matrices rescaled by the
    host text both programs share. -/
def specOf (c : Dev nD) : S8192x2048.Idx → EReal :=
  Cert.Spec.G (m ((c : Thread nD τ).loc main_arg0))
    (Cert.ReferenceIdeal.Read.val_main_v4 (m ((c : Thread nD τ).loc main_arg1)) (m ((c : Thread nD τ).loc main_arg2)))
    (Cert.ReferenceIdeal.Read.val_main_v12 (m ((c : Thread nD τ).loc main_arg3)) (m ((c : Thread nD τ).loc main_arg4)))
    (Cert.ReferenceIdeal.Read.val_main_v19 (m ((c : Thread nD τ).loc main_arg5)) (m ((c : Thread nD τ).loc main_arg6)))

/-- The result buffer's last contents are the specification. -/
theorem result_eq (c : Dev nD) : (W3 m c (Proc.devRef .tc main_v20) : S8192x2048.Idx → EReal) = specOf m c := by
  have h20 : W3 m c (Proc.devRef .tc main_v20) = (ddat (U2 m) c).arrAt 2 cfg1.N := W3_arr m c 2
  have h19 : U2 m c main_v19 = (gdat (U1 m) c).arrAt 3 cfg0.N := W2_arr m c 3
  have h17 : U2 m c main_v17 = U1 m c main_v17 := W2_of_ne m c main_v17 (by decide)
  have e18 : (U1 m c main_v18 : S8192x2048.Idx → EReal) = m ((c : Thread nD τ).loc main_arg0) := Cert.KernelIdeal.HostVals.host_v18 m c
  have e5 : (U1 m c main_v5 : S5632x2048.Idx → EReal) = _ := Cert.KernelIdeal.HostVals.host_v5 m c
  have e11 : (U1 m c main_v11 : S5632x2048.Idx → EReal) = _ := Cert.KernelIdeal.HostVals.host_v11 m c
  have e17 : (U1 m c main_v17 : S2048x5632.Idx → EReal) = _ := Cert.KernelIdeal.HostVals.host_v17 m c
  rw [h20, down_array (U2 m) c, h19, gate_array (U1 m) c, h17, e18, e5, e11, e17]
  rfl

/-- THE VALUE RUN: every weakly fair execution of the idealized kernel program terminates with the result
    buffer at the specification and the arguments unchanged. -/
theorem run_value : θ_run defs (onTc (τ := τ) (main (F := Ideal))) ⟨m, fun _ => 0, ρ⟩ (fun r => ∀ c : Dev nD,
      r.2.mem ((c.tc : Thread nD τ).loc main_v20) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v20 (by decide))).trans (result_eq m c),
     (h c _ (mem_uc main_arg0 (by decide))).trans (W3_args m c).1,
     (h c _ (mem_uc main_arg1 (by decide))).trans (W3_args m c).2.1,
     (h c _ (mem_uc main_arg2 (by decide))).trans (W3_args m c).2.2.1,
     (h c _ (mem_uc main_arg3 (by decide))).trans (W3_args m c).2.2.2.1,
     (h c _ (mem_uc main_arg4 (by decide))).trans (W3_args m c).2.2.2.2.1,
     (h c _ (mem_uc main_arg5 (by decide))).trans (W3_args m c).2.2.2.2.2.1,
     (h c _ (mem_uc main_arg6 (by decide))).trans (W3_args m c).2.2.2.2.2.2⟩) (run_all m ρ)

end Cert.KernelIdeal.Hand

end
-- ==== Proof.RefSpec.lean ====
/-
  The reference program computes the specification.

  The host program's stages, read as matrices over the extended reals:
    stages 4, 12, 19   the three weight matrices after their block-wise rescaling, D0, D1 of shape
                       [5632, 2048] and D2 of shape [2048, 5632] (kept closed: the specification takes
                       them as they are);
    stages 5, 13, 21   their transposes;
    stage 6            gate = x · D0ᵀ, gate[r, k] = Σ_j x[r, j] · D0[k, j];
    stage 14           up   = x · D1ᵀ;
    the call's stages  -gate, e^(-gate), 1 + e^(-gate), 1 / (1 + e^(-gate)): the expansion of silu
                       into negate, exponential, add and divide is, entry by entry, the logistic
                       function of the extended reals (`Ideal.logistic g = div 1 (1 + exp (-g))`), the
                       constant of pattern 0x3F800000 being the real 1;
    stage 7            silu(gate) = gate · logistic(gate);
    stage 20           hid = silu(gate) · up;
    stage 22           out = hid · D2ᵀ, out[r, d] = Σ_k hid[r, k] · D2[d, k].
  Entry by entry this is `Spec.G x D0 D1 D2`.
-/
import proofs.«110734_j13889924235944_1_alg».proof.Proof.RefRead
import proofs.«110734_j13889924235944_1_alg».proof.Proof.Spec

noncomputable section

open scoped BigOperators

namespace Cert.RefSide

open Cert.ReferenceIdeal Cert.ReferenceIdeal.Read Idealize.ShloMosaic Idealize.ShloMosaic.ValueIdx

/-- The pattern 0x3F800000 denotes the real 1. -/
theorem ofBits_one : Ideal.ofBits .f32 0x3F800000#32 = 1 := by
  simp [Ideal.ofBits, Ideal.ieee, -EReal.coe_mul]; norm_num

/-- Stage 6 at (r, k) is row `r` of the tokens against row `k` of the rescaled gate weights. -/
theorem gate_eq (x0 : (⟨S8192x2048, .f32⟩ : BufTy).Contents (Elt Ideal)) (x1 : (⟨S5632x2048, .f32⟩ : BufTy).Contents (Elt Ideal))
    (x2 : (⟨S44x16, .f32⟩ : BufTy).Contents (Elt Ideal)) (r : Fin 8192) (k : Fin 5632) :
    val_main_v6 x0 x1 x2 (ix2 r k) = Cert.Spec.proj x0 (val_main_v4 x1 x2) r k := by
  rw [val_main_v6_apply]
  unfold Cert.Spec.proj
  refine Finset.sum_congr rfl fun j _ => ?_
  rw [val_main_v5_apply]
  have e1 : lidx_main_v6 (ix2 r k) j = ix2 r j :=
    funext fun a => Fin.ext (by match a with | ⟨0, _⟩ => rfl | ⟨1, _⟩ => rfl)
  have e2 : idx_main_v5 (ridx_main_v6 (ix2 r k) j) = ix2 k j :=
    funext fun a => Fin.ext (by match a with | ⟨0, _⟩ => rfl | ⟨1, _⟩ => rfl)
  rw [e1, e2]

/-- Stage 14 at (r, k) is row `r` of the tokens against row `k` of the rescaled up weights. -/
theorem up_eq (x0 : (⟨S8192x2048, .f32⟩ : BufTy).Contents (Elt Ideal)) (x3 : (⟨S5632x2048, .f32⟩ : BufTy).Contents (Elt Ideal))
    (x4 : (⟨S44x16, .f32⟩ : BufTy).Contents (Elt Ideal)) (r : Fin 8192) (k : Fin 5632) :
    val_main_v14 x0 x3 x4 (ix2 r k) = Cert.Spec.proj x0 (val_main_v12 x3 x4) r k := by
  rw [val_main_v14_apply]
  unfold Cert.Spec.proj
  refine Finset.sum_congr rfl fun j _ => ?_
  rw [val_main_v13_apply]
  have e1 : lidx_main_v14 (ix2 r k) j = ix2 r j :=
    funext fun a => Fin.ext (by match a with | ⟨0, _⟩ => rfl | ⟨1, _⟩ => rfl)
  have e2 : idx_main_v13 (ridx_main_v14 (ix2 r k) j) = ix2 k j :=
    funext fun a => Fin.ext (by match a with | ⟨0, _⟩ => rfl | ⟨1, _⟩ => rfl)
  rw [e1, e2]

/-- The call's last stage at an index is the logistic function of stage 6 there: negate, exponential,
    add to 1 and divide 1 by it spell `1 / (1 + e^(-g))`. -/
theorem logistic_eq (x0 : (⟨S8192x2048, .f32⟩ : BufTy).Contents (Elt Ideal)) (x1 : (⟨S5632x2048, .f32⟩ : BufTy).Contents (Elt Ideal))
    (x2 : (⟨S44x16, .f32⟩ : BufTy).Contents (Elt Ideal)) (i : S8192x5632.Idx) :
    val_main_call0_v5 x0 x1 x2 i = Ideal.logistic (val_main_v6 x0 x1 x2 i) := by
  rw [val_main_call0_v5_apply, val_main_call0_v4_apply, val_main_call0_cst_0_apply, val_main_call0_v3_apply,
    val_main_call0_v2_apply, val_main_call0_cst_apply, val_main_call0_v1_apply, val_main_call0_v0_apply]
  simp only [Ideal.hostDivf_def, Ideal.addf_def, Ideal.hostUnary_exp_def, Ideal.hostNegf_def, Ideal.negf_def,
    Ideal.ofBits_def, ofBits_one]
  rfl

/-- Stage 20 at (r, k) is the gated hidden activation. -/
theorem hid_eq (x0 : (⟨S8192x2048, .f32⟩ : BufTy).Contents (Elt Ideal)) (x1 : (⟨S5632x2048, .f32⟩ : BufTy).Contents (Elt Ideal))
    (x2 : (⟨S44x16, .f32⟩ : BufTy).Contents (Elt Ideal)) (x3 : (⟨S5632x2048, .f32⟩ : BufTy).Contents (Elt Ideal))
    (x4 : (⟨S44x16, .f32⟩ : BufTy).Contents (Elt Ideal)) (r : Fin 8192) (k : Fin 5632) :
    val_main_v20 x0 x1 x2 x3 x4 (ix2 r k)
      = Cert.Spec.hid x0 (val_main_v4 x1 x2) (val_main_v12 x3 x4) r k := by
  rw [val_main_v20_apply, val_main_v7_apply, logistic_eq, gate_eq, up_eq]
  rfl

/-- The reference's result is the specification of the tokens and the three rescaled weight matrices. -/
theorem result_eq (x0 : (⟨S8192x2048, .f32⟩ : BufTy).Contents (Elt Ideal)) (x1 : (⟨S5632x2048, .f32⟩ : BufTy).Contents (Elt Ideal)) (x2 : (⟨S44x16, .f32⟩ : BufTy).Contents (Elt Ideal)) (x3 : (⟨S5632x2048, .f32⟩ : BufTy).Contents (Elt Ideal)) (x4 : (⟨S44x16, .f32⟩ : BufTy).Contents (Elt Ideal)) (x5 : (⟨S2048x5632, .f32⟩ : BufTy).Contents (Elt Ideal)) (x6 : (⟨S16x44, .f32⟩ : BufTy).Contents (Elt Ideal)) :
    val_main_v22 x0 x1 x2 x3 x4 x5 x6 = Cert.Spec.G x0 (val_main_v4 x1 x2) (val_main_v12 x3 x4) (val_main_v19 x5 x6) := by
  funext i
  obtain ⟨r, d, rfl⟩ : ∃ (r : Fin 8192) (d : Fin 2048), i = ix2 r d := ⟨i 0, i 1, eq_ix2 i⟩
  rw [val_main_v22_apply, Cert.Spec.G_apply]
  unfold Cert.Spec.out
  refine Finset.sum_congr rfl fun k _ => ?_
  rw [val_main_v21_apply]
  have e1 : lidx_main_v22 (ix2 r d) k = ix2 r k :=
    funext fun a => Fin.ext (by match a with | ⟨0, _⟩ => rfl | ⟨1, _⟩ => rfl)
  have e2 : idx_main_v21 (ridx_main_v22 (ix2 r d) k) = ix2 d k :=
    funext fun a => Fin.ext (by match a with | ⟨0, _⟩ => rfl | ⟨1, _⟩ => rfl)
  rw [e1, e2, hid_eq]

end Cert.RefSide

end
-- ==== Proof.lean ====
/-
  The certificate of a SwiGLU feed-forward block with block-wise rescaled weights: a Pallas program of two
  kernel regions against its jnp reference.

  Both programs first rescale the three weight matrices block by block (the same host text). The kernel
  program then rounds them and the tokens to bf16, computes in a first region the hidden activation
  `silu(x·D0ᵀ) · (x·D1ᵀ)` tile by tile, and in a second region contracts it against `D2`, walking the 5632
  hidden units in 11 blocks of 512 and accumulating in a scratch buffer that is cleared at the first block
  and copied out at the last. The reference computes `(silu(x·D0ᵀ) · (x·D1ᵀ)) · D2ᵀ` with whole-matrix
  products, `silu` expanded into negate, exponential, add, divide and multiply.

  Over the extended reals the rounding is the identity, the kernel's logistic IS `1 / (1 + e^(-g))`, a
  product into a zero accumulator is the plain sum, and a sum of 5632 terms may be taken 512 at a time
  (addition of extended reals is associative and commutative, and the accumulator starts at zero): both
  programs compute `Spec.G` of the tokens and the rescaled weights. No finiteness of the inputs is used.

  The frames: each kernel program runs to the end, faults nowhere and leaves its arguments unchanged —
  the several-regions launch over the two regions' bodies (Proof/IRun.lean for the idealized program; the
  same text at the printed program's namespace, Proof/KRun.lean); the reference's is its run with the
  result dropped. No rewrite was applied by the ideal pass, so `preserves` is trivial.
-/
import proofs.«110734_j13889924235944_1_alg».proof.Defs
import proofs.«110734_j13889924235944_1_alg».proof.Proof.KRun
import proofs.«110734_j13889924235944_1_alg».proof.Proof.IValue
import proofs.«110734_j13889924235944_1_alg».proof.Proof.RefSpec
import proofs.«110734_j13889924235944_1_alg».proof.Proof.Gen.Kernel
import proofs.«110734_j13889924235944_1_alg».proof.Proof.Gen.KernelIdeal
import proofs.«110734_j13889924235944_1_alg».proof.Proof.Gen.ReferenceIdeal
import proofs.«110734_j13889924235944_1_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result at
    `Spec.G` of the tokens and the rescaled weights: the kernel program by its value run, the reference by
    its generated run read stage by stage. -/
theorem algebraic : Cert.algebraic_KernelIdeal_ReferenceIdeal := by
  intro m ρ m' ρ' _ hagree
  refine ⟨fun c => Cert.KernelIdeal.Hand.specOf m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  rw [Cert.ReferenceIdeal.Read.val_main_v22_eq]
  exact Cert.RefSide.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
